-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x32000 : Shape := ⟨3, ![1, 2048, 32000]⟩
abbrev S1x2048 : Shape := ⟨2, ![1, 2048]⟩
abbrev S_ : Shape := ⟨0, ![]⟩

class Facts : Prop where
  bcast_S_S1x2048x32000 : S_.BroadcastsInDim S1x2048x32000 (![] : Fin 0 → Fin S1x2048x32000.rank)
  reducesTo_S1x2048x32000_S_d0_1_2 : S1x2048x32000.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg3 : IVec S1x2048 32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_c_6 : IVec S_ 32 := constantI S_ 32 4294967196#32
  let main_v19 : IVec S1x2048 32 := broadcastInDim S1x2048 ![] bcast_S_S1x2048 main_c_6
  let main_v20 : IVec S1x2048 1 := cmpi .eq main_arg3 main_v19
  let main_c_7 : IVec S_ 32 := constantI S_ 32 0#32
  let main_v21 : IVec S1x2048 32 := broadcastInDim S1x2048 ![] bcast_S_S1x2048 main_c_7
  let main_v22 : IVec S1x2048 1 := cmpi .sge main_arg3 main_v21
  let main_c_8 : IVec S_ 32 := constantI S_ 32 32000#32
  let main_v23 : IVec S1x2048 32 := broadcastInDim S1x2048 ![] bcast_S_S1x2048 main_c_8
  let main_v24 : IVec S1x2048 1 := cmpi .slt main_arg3 main_v23
  let main_v25 : IVec S1x2048 1 := andi main_v22 main_v24
  let main_v26 : IVec S1x2048 1 := ori main_v20 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v18 main_v27
  main_v28

def fn {F : FTy → Type} [FloatOps F] (main_arg0 : FVec F S1x2048x32000 .f32) (main_arg1 : FVec F S1x2048x32000 .f32) (main_arg2 : FVec F S1x2048x32000 .f32) (main_arg3 : IVec S1x2048 32) (main_arg4 : FVec F S1x2048 .f32) : IVec S_ 1 :=
  let main_v0 : FVec F S1x2048x32000 .f32 := Host.absf main_arg0
  let main_cst : FVec F S_ .f32 := constant S_ .f32 0x7F800000#32
  let main_v1 : FVec F S1x2048x32000 .f32 := broadcastInDim S1x2048x32000 ![] bcast_S_S1x2048x32000 main_cst
  let main_v2 : IVec S1x2048x32000 1 := cmpf .olt main_v0 main_v1
  let main_c : IVec S_ 1 := constantI S_ 1 1#1
  let main_v3 : IVec S_ 1 := (fun x v => Host.reduce IntOp.andi x v reducesTo_S1x2048x32000_S_d0_1_2 h_S_) main_v2 main_c
  let main_v4 : FVec F S1x2048x32000 .f32 := Host.absf main_arg1
  let main_cst_0 : FVec F S_ .f32 := constant S_ .f32 0x7F800000#32
  let main_v5 : FVec F S1x2048x32000 .f32 := broadcastInDim S1x2048x32000 ![] bcast_S_S1x2048x32000 main_cst_0
  let main_v6 : IVec S1x2048x32000 1 := cmpf .olt main_v4 main_v5
  let main_c_1 : IVec S_ 1 := constantI S_ 1 1#1
  let main_v7 : IVec S_ 1 := (fun x v => Host.reduce IntOp.andi x v reducesTo_S1x2048x32000_S_d0_1_2 h_S_) main_v6 main_c_1
  let main_v8 : IVec S_ 1 := andi main_v3 main_v7
  let main_v9 : FVec F S1x2048x32000 .f32 := Host.absf main_arg2
  let main_cst_2 : FVec F S_ .f32 := constant S_ .f32 0x7F800000#32
  let main_v10 : FVec F S1x2048x32000 .f32 := broadcastInDim S1x2048x32000 ![] bcast_S_S1x2048x32000 main_cst_2
  let main_v11 : IVec S1x2048x32000 1 := cmpf .olt main_v9 main_v10
  let main_c_3 : IVec S_ 1 := constantI S_ 1 1#1
  let main_v12 : IVec S_ 1 := (fun x v => Host.reduce IntOp.andi x v reducesTo_S1x2048x32000_S_d0_1_2 h_S_) main_v11 main_c_3
  let main_v13 : IVec S_ 1 := andi main_v8 main_v12
  let main_v14 : FVec F S1x2048 .f32 := Host.absf main_arg4
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg3 main_v13 main_v16
-- ==== Kernel.lean ====
abbrev S1x2048x32000 : Shape := ⟨3, ![1, 2048, 32000]⟩
abbrev S1x2048 : Shape := ⟨2, ![1, 2048]⟩
abbrev S2048x32000 : Shape := ⟨2, ![2048, 32000]⟩
abbrev S2048x1 : Shape := ⟨2, ![2048, 1]⟩
abbrev S32000 : Shape := ⟨1, ![32000]⟩
abbrev S1x32000 : Shape := ⟨2, ![1, 32000]⟩
abbrev S2x8x128 : Shape := ⟨3, ![2, 8, 128]⟩
abbrev S16x32000 : Shape := ⟨2, ![16, 32000]⟩
abbrev S16x1 : Shape := ⟨2, ![16, 1]⟩
abbrev S1x8x128 : Shape := ⟨3, ![1, 8, 128]⟩
abbrev S16 : Shape := ⟨1, ![16]⟩
abbrev S1 : Shape := ⟨1, ![1]⟩
abbrev S1x1 : Shape := ⟨2, ![1, 1]⟩
abbrev S8x128 : Shape := ⟨2, ![8, 128]⟩
abbrev S2x1x1 : Shape := ⟨3, ![2, 1, 1]⟩
abbrev S2 : Shape := ⟨1, ![2]⟩
abbrev S_ : Shape := ⟨0, ![]⟩

abbrev nBuf : Space → Nat
  | .hbm => 24
  | .vmem => 13
  | .smem => 0
  | _ => 0

abbrev bufTy : (tb : Table) → Fin (tcTables nBuf tb) → BufTy
  | .hbm, ⟨0, _⟩ => ⟨S1x2048x32000, .f32⟩
  | .hbm, ⟨1, _⟩ => ⟨S1x2048x32000, .f32⟩
  | .hbm, ⟨2, _⟩ => ⟨S1x2048x32000, .f32⟩
  | .hbm, ⟨3, _⟩ => ⟨S1x2048, .i32⟩
  | .hbm, ⟨4, _⟩ => ⟨S1x2048, .f32⟩
  | .hbm, ⟨5, _⟩ => ⟨S2048x32000, .f32⟩
  | .hbm, ⟨6, _⟩ => ⟨S2048x32000, .f32⟩
  | .hbm, ⟨7, _⟩ => ⟨S2048x32000, .f32⟩
  | .hbm, ⟨8, _⟩ => ⟨S2048x1, .i32⟩
  | .hbm, ⟨9, _⟩ => ⟨S2048x1, .f32⟩
  | .hbm, ⟨10, _⟩ => ⟨S32000, .i32⟩
  | .hbm, ⟨11, _⟩ => ⟨S1x32000, .i32⟩
  | .hbm, ⟨12, _⟩ => ⟨S2x8x128, .f32⟩
  | .hbm, ⟨13, _⟩ => ⟨S2x1x1, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S2x1x1, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S16x32000, .f32⟩
  | .local _ .vmem, ⟨1, _⟩ => ⟨S16x32000, .f32⟩
  | .local _ .vmem, ⟨2, _⟩ => ⟨S16x32000, .f32⟩
  | .local _ .vmem, ⟨3, _⟩ => ⟨S16x32000, .f32⟩
  | .local _ .vmem, ⟨4, _⟩ => ⟨S16x32000, .f32⟩
  | .local _ .vmem, ⟨5, _⟩ => ⟨S16x32000, .f32⟩
  | .local _ .vmem, ⟨6, _⟩ => ⟨S16x1, .i32⟩
  | .local _ .vmem, ⟨7, _⟩ => ⟨S16x1, .i32⟩
  | .local _ .vmem, ⟨8, _⟩ => ⟨S16x1, .f32⟩
  | .local _ .vmem, ⟨9, _⟩ => ⟨S16x1, .f32⟩
  | .local _ .vmem, ⟨10, _⟩ => ⟨S1x32000, .i32⟩
  | .local _ .vmem, ⟨11, _⟩ => ⟨S1x8x128, .f32⟩
  | .local _ .vmem, ⟨12, _⟩ => ⟨S1x8x128, .f32⟩
  | _, _ => ⟨S1x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x32000 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1x2048x32000_S2048x32000 : S1x2048x32000.ShapeCasts S2048x32000
  shapeCasts_S1x2048_S2048x1 : S1x2048.ShapeCasts S2048x1
  shapeCasts_S32000_S1x32000 : S32000.ShapeCasts S1x32000
  inb_S1x8x128_S1x8x128_0_0_0 : ∀ a, (![0, 0, 0] : Fin 3 → Nat) a + S1x8x128.size a ≤ S1x8x128.size a
  h_S1x8x128 : 0 < S1x8x128.numel
  inb_S16x32000_S16x32000_0_0 : ∀ a, (![0, 0] : Fin 2 → Nat) a + S16x32000.size a ≤ S16x32000.size a
  h_S16x32000 : 0 < S16x32000.numel
  shapeCasts_S16x32000_S16x32000 : S16x32000.ShapeCasts S16x32000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  reduces_S16x32000_S16 : S16x32000.Reduces [1] S16
  shapeCasts_S16_S16x1 : S16.ShapeCasts S16x1
  broadcasts_S16x1_S16x32000 : S16x1.Broadcasts S16x32000
  broadcasts_S1x32000_S16x32000 : S1x32000.Broadcasts S16x32000
  reduces_S16x1_S1 : S16x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S1x8x128_S1x8x128 : S1x8x128.ShapeCasts S1x8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  slices_S2x8x128_S2x1x1_0_0_1 : S2x8x128.Slices ![0, 0, 1] S2x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32000.size a ≤ S2048x32000.size a
  hwx0_0 : ∀ i : grid0.Coords, EltTy.bits .f32 = 32 ∨ (Rect.block (s := S2048x32000) S16x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32000.size a ≤ S2048x32000.size a
  hwx0_1 : ∀ i : grid0.Coords, EltTy.bits .f32 = 32 ∨ (Rect.block (s := S2048x32000) S16x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32000.size a ≤ S2048x32000.size a
  hwx0_2 : ∀ i : grid0.Coords, EltTy.bits .f32 = 32 ∨ (Rect.block (s := S2048x32000) S16x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S2048x1.size a
  hwx0_3 : ∀ i : grid0.Coords, EltTy.bits .i32 = 32 ∨ (Rect.block (s := S2048x1) S16x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S2048x1.size a
  hwx0_4 : ∀ i : grid0.Coords, EltTy.bits .f32 = 32 ∨ (Rect.block (s := S2048x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32000.size a ≤ S1x32000.size a
  hwx0_5 : ∀ i : grid0.Coords, EltTy.bits .i32 = 32 ∨ (Rect.block (s := S1x32000) S1x32000.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

abbrev win0_0 : Pipeline.Window sig grid0 :=
  Pipeline.Window.ofSpec (Memref.whole main_v0) S16x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x32000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x2048x32000 : Shape := ⟨3, ![1, 2048, 32000]⟩
abbrev S1x2048 : Shape := ⟨2, ![1, 2048]⟩
abbrev S_ : Shape := ⟨0, ![]⟩
abbrev S1x2048x1 : Shape := ⟨3, ![1, 2048, 1]⟩
abbrev S1x2048x2 : Shape := ⟨3, ![1, 2048, 2]⟩
abbrev S2048x1x1 : Shape := ⟨3, ![2048, 1, 1]⟩
abbrev S1 : Shape := ⟨1, ![1]⟩
abbrev S1x1x1 : Shape := ⟨3, ![1, 1, 1]⟩
abbrev S2048x1 : Shape := ⟨2, ![2048, 1]⟩

abbrev nBuf : Space → Nat
  | .hbm => 203
  | .vmem => 0
  | .smem => 0
  | _ => 0

abbrev hbmTy0_0 (i : Nat) : BufTy := match i % 128 with
  | 0 => ⟨S1x2048x32000, .f32⟩
  | 1 => ⟨S1x2048x32000, .f32⟩
  | 2 => ⟨S1x2048x32000, .f32⟩
  | 3 => ⟨S1x2048, .i32⟩
  | 4 => ⟨S1x2048, .f32⟩
  | 5 => ⟨S_, .f32⟩
  | 6 => ⟨S1x2048, .f32⟩
  | 7 => ⟨S_, .f32⟩
  | 8 => ⟨S1x2048, .f32⟩
  | 9 => ⟨S1x2048, .f32⟩
  | 10 => ⟨S1x2048x1, .f32⟩
  | 11 => ⟨S1x2048x32000, .f32⟩
  | 12 => ⟨S1x2048x32000, .f32⟩
  | 13 => ⟨S1x2048x32000, .f32⟩
  | 14 => ⟨S_, .f32⟩
  | 15 => ⟨S1x2048, .f32⟩
  | 16 => ⟨S1x2048x1, .f32⟩
  | 17 => ⟨S1x2048x1, .f32⟩
  | 18 => ⟨S1x2048x32000, .f32⟩
  | 19 => ⟨S1x2048x32000, .f32⟩
  | 20 => ⟨S1x2048x32000, .f32⟩
  | 21 => ⟨S1x2048x32000, .f32⟩
  | 22 => ⟨S_, .f32⟩
  | 23 => ⟨S1x2048, .f32⟩
  | 24 => ⟨S1x2048, .f32⟩
  | 25 => ⟨S_, .f32⟩
  | 26 => ⟨S_, .f32⟩
  | 27 => ⟨S_, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S_, .f32⟩
  | 37 => ⟨S1x2048, .f32⟩
  | 38 => ⟨S1x2048, .f32⟩
  | 39 => ⟨S1x2048x32000, .f32⟩
  | 40 => ⟨S1x2048x32000, .f32⟩
  | 41 => ⟨S_, .f32⟩
  | 42 => ⟨S1x2048, .f32⟩
  | 43 => ⟨S1x2048, .f32⟩
  | 44 => ⟨S_, .f32⟩
  | 45 => ⟨S_, .f32⟩
  | 46 => ⟨S_, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S1x2048x1, .f32⟩
  | 65 => ⟨S1x2048x1, .f32⟩
  | 66 => ⟨S1x2048x2, .f32⟩
  | 67 => ⟨S_, .f32⟩
  | 68 => ⟨S1x2048, .f32⟩
  | 69 => ⟨S_, .f32⟩
  | 70 => ⟨S1x2048, .f32⟩
  | 71 => ⟨S1x2048, .f32⟩
  | 72 => ⟨S1x2048x1, .f32⟩
  | 73 => ⟨S1x2048x2, .f32⟩
  | 74 => ⟨S1x2048x2, .f32⟩
  | 75 => ⟨S1x2048x2, .f32⟩
  | 76 => ⟨S_, .f32⟩
  | 77 => ⟨S1x2048, .f32⟩
  | 78 => ⟨S1x2048x1, .f32⟩
  | 79 => ⟨S1x2048x2, .f32⟩
  | 80 => ⟨S1x2048x2, .f32⟩
  | 81 => ⟨S1x2048x1, .f32⟩
  | 82 => ⟨S1x2048, .f32⟩
  | 83 => ⟨S1x2048x1, .f32⟩
  | 84 => ⟨S1x2048, .f32⟩
  | 85 => ⟨S1x2048x32000, .f32⟩
  | 86 => ⟨S1x2048x32000, .f32⟩
  | 87 => ⟨S1x2048x32000, .f32⟩
  | 88 => ⟨S_, .f32⟩
  | 89 => ⟨S1x2048x32000, .f32⟩
  | 90 => ⟨S1x2048x32000, .f32⟩
  | 91 => ⟨S_, .f32⟩
  | 92 => ⟨S1x2048x32000, .f32⟩
  | 93 => ⟨S1x2048x32000, .f32⟩
  | 94 => ⟨S1x2048x32000, .f32⟩
  | 95 => ⟨S1x2048x32000, .f32⟩
  | 96 => ⟨S1x2048x32000, .f32⟩
  | 97 => ⟨S_, .f32⟩
  | 98 => ⟨S1x2048, .f32⟩
  | 99 => ⟨S1x2048x32000, .f32⟩
  | 100 => ⟨S1x2048x32000, .f32⟩
  | 101 => ⟨S_, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S_, .f32⟩
  | 111 => ⟨S_, .f32⟩
  | 112 => ⟨S_, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S1x2048x32000, .f32⟩

abbrev hbmTy0_1 (i : Nat) : BufTy := match i % 128 with
  | 0 => ⟨S1x2048, .f32⟩
  | 1 => ⟨S_, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048x32000, .f32⟩
  | 8 => ⟨S1x2048x32000, .f32⟩
  | 9 => ⟨S_, .f32⟩
  | 10 => ⟨S1x2048, .f32⟩
  | 11 => ⟨S_, .f32⟩
  | 12 => ⟨S1x2048, .f32⟩
  | 13 => ⟨S1x2048, .f32⟩
  | 14 => ⟨S1x2048x32000, .f32⟩
  | 15 => ⟨S1x2048x32000, .f32⟩
  | 16 => ⟨S_, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S_, .i32⟩
  | 25 => ⟨S1x2048, .i32⟩
  | 26 => ⟨S1x2048, .i1⟩
  | 27 => ⟨S_, .i32⟩
  | 28 => ⟨S_, .i32⟩
  | 29 => ⟨S1x2048, .i32⟩
  | 30 => ⟨S1x2048, .i32⟩
  | 31 => ⟨S1x2048x1, .i32⟩
  | 32 => ⟨S_, .i32⟩
  | 33 => ⟨S1x2048x1, .i32⟩
  | 34 => ⟨S1x2048x1, .i1⟩
  | 35 => ⟨S_, .i32⟩
  | 36 => ⟨S1x2048x1, .i32⟩
  | 37 => ⟨S1x2048x1, .i32⟩
  | 38 => ⟨S1x2048x1, .i32⟩
  | 39 => ⟨S2048x1x1, .i32⟩
  | 40 => ⟨S1, .i32⟩
  | 41 => ⟨S_, .i32⟩
  | 42 => ⟨S2048x1x1, .i32⟩
  | 43 => ⟨S2048x1x1, .i1⟩
  | 44 => ⟨S1x1x1, .i32⟩
  | 45 => ⟨S2048x1x1, .i32⟩
  | 46 => ⟨S2048x1x1, .i1⟩
  | 47 => ⟨S2048x1x1, .i1⟩
  | 48 => ⟨S_, .i1⟩
  | 49 => ⟨S2048x1, .i1⟩
  | 50 => ⟨S1x2048x1, .f32⟩
  | 51 => ⟨S1x2048x1, .i1⟩
  | 52 => ⟨S_, .f32⟩
  | 53 => ⟨S1x2048x1, .f32⟩
  | 54 => ⟨S1x2048x1, .f32⟩
  | 55 => ⟨S1x2048, .f32⟩
  | 56 => ⟨S1x2048, .f32⟩
  | 57 => ⟨S_, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | _ => ⟨S1x2048x32000, .f32⟩

abbrev hbmTy (i : Nat) : BufTy := match i / 128 with
  | 0 => hbmTy0_0 i
  | 1 => hbmTy0_1 i
  | _ => ⟨S1x2048x32000, .f32⟩

abbrev bufTy : (tb : Table) → Fin (tcTables nBuf tb) → BufTy
  | .hbm, ⟨i, _⟩ => hbmTy i
  | _, _ => ⟨S1x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_cst_3 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_4 : Ref sig .tc := ⟨.hbm, 41, rfl⟩
abbrev main_v12 : Ref sig .tc := ⟨.hbm, 42, rfl⟩
abbrev main_v13 : Ref sig .tc := ⟨.hbm, 43, rfl⟩
abbrev main_cst_5 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v14 : Ref sig .tc := ⟨.hbm, 51, rfl⟩
abbrev main_cst_7 : Ref sig .tc := ⟨.hbm, 52, rfl⟩
abbrev main_v15 : Ref sig .tc := ⟨.hbm, 53, rfl⟩
abbrev main_v16 : Ref sig .tc := ⟨.hbm, 54, rfl⟩
abbrev main_cst_8 : Ref sig .tc := ⟨.hbm, 55, rfl⟩
abbrev main_v17 : Ref sig .tc := ⟨.hbm, 56, rfl⟩
abbrev main_v18 : Ref sig .tc := ⟨.hbm, 57, rfl⟩
abbrev main_cst_9 : Ref sig .tc := ⟨.hbm, 58, rfl⟩
abbrev main_v19 : Ref sig .tc := ⟨.hbm, 59, rfl⟩
abbrev main_v20 : Ref sig .tc := ⟨.hbm, 60, rfl⟩
abbrev main_cst_10 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_11 : Ref sig .tc := ⟨.hbm, 67, rfl⟩
abbrev main_v26 : Ref sig .tc := ⟨.hbm, 68, rfl⟩
abbrev main_cst_12 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_13 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_14 : Ref sig .tc := ⟨.hbm, 88, rfl⟩
abbrev main_v44 : Ref sig .tc := ⟨.hbm, 89, rfl⟩
abbrev main_v45 : Ref sig .tc := ⟨.hbm, 90, rfl⟩
abbrev main_cst_15 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_16 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_17 : Ref sig .tc := ⟨.hbm, 101, rfl⟩
abbrev main_v54 : Ref sig .tc := ⟨.hbm, 102, rfl⟩
abbrev main_v55 : Ref sig .tc := ⟨.hbm, 103, rfl⟩
abbrev main_cst_18 : Ref sig .tc := ⟨.hbm, 104, rfl⟩
abbrev main_v56 : Ref sig .tc := ⟨.hbm, 105, rfl⟩
abbrev main_v57 : Ref sig .tc := ⟨.hbm, 106, rfl⟩
abbrev main_cst_19 : Ref sig .tc := ⟨.hbm, 107, rfl⟩
abbrev main_v58 : Ref sig .tc := ⟨.hbm, 108, rfl⟩
abbrev main_v59 : Ref sig .tc := ⟨.hbm, 109, rfl⟩
abbrev main_cst_20 : Ref sig .tc := ⟨.hbm, 110, rfl⟩
abbrev main_cst_21 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v60 : Ref sig .tc := ⟨.hbm, 117, rfl⟩
abbrev main_cst_22 : Ref sig .tc := ⟨.hbm, 118, rfl⟩
abbrev main_v61 : Ref sig .tc := ⟨.hbm, 119, rfl⟩
abbrev main_v62 : Ref sig .tc := ⟨.hbm, 120, rfl⟩
abbrev main_cst_23 : Ref sig .tc := ⟨.hbm, 121, rfl⟩
abbrev main_v63 : Ref sig .tc := ⟨.hbm, 122, rfl⟩
abbrev main_v64 : Ref sig .tc := ⟨.hbm, 123, rfl⟩
abbrev main_cst_24 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_cst_25 : Ref sig .tc := ⟨.hbm, 129, rfl⟩
abbrev main_v69 : Ref sig .tc := ⟨.hbm, 130, rfl⟩
abbrev main_v70 : Ref sig .tc := ⟨.hbm, 131, rfl⟩
abbrev main_cst_26 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_27 : Ref sig .tc := ⟨.hbm, 137, rfl⟩
abbrev main_v75 : Ref sig .tc := ⟨.hbm, 138, rfl⟩
abbrev main_cst_28 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_29 : Ref sig .tc := ⟨.hbm, 144, rfl⟩
abbrev main_v80 : Ref sig .tc := ⟨.hbm, 145, rfl⟩
abbrev main_cst_30 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_c : Ref sig .tc := ⟨.hbm, 152, rfl⟩
abbrev main_v86 : Ref sig .tc := ⟨.hbm, 153, rfl⟩
abbrev main_v87 : Ref sig .tc := ⟨.hbm, 154, rfl⟩
abbrev main_c_31 : Ref sig .tc := ⟨.hbm, 155, rfl⟩
abbrev main_call4_v0 : Ref sig .tc := ⟨.hbm, 156, rfl⟩
abbrev main_call4_v1 : Ref sig .tc := ⟨.hbm, 157, rfl⟩
abbrev main_v88 : Ref sig .tc := ⟨.hbm, 158, rfl⟩
abbrev main_v89 : Ref sig .tc := ⟨.hbm, 159, rfl⟩
abbrev main_call5_c : Ref sig .tc := ⟨.hbm, 160, rfl⟩
abbrev main_call5_v0 : Ref sig .tc := ⟨.hbm, 161, rfl⟩
abbrev main_call5_v1 : Ref sig .tc := ⟨.hbm, 162, rfl⟩
abbrev main_call5_c_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_c_1 : Ref sig .tc := ⟨.hbm, 168, rfl⟩
abbrev main_call5_c_2 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_c_3 : Ref sig .tc := ⟨.hbm, 176, rfl⟩
abbrev main_call5_v12 : Ref sig .tc := ⟨.hbm, 177, rfl⟩
abbrev main_call5_v13 : Ref sig .tc := ⟨.hbm, 178, rfl⟩
abbrev main_call5_v14 : Ref sig .tc := ⟨.hbm, 179, rfl⟩
abbrev main_call5_cst : Ref sig .tc := ⟨.hbm, 180, rfl⟩
abbrev main_call5_v15 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_cst_32 : Ref sig .tc := ⟨.hbm, 185, rfl⟩
abbrev main_call6_v0 : Ref sig .tc := ⟨.hbm, 186, rfl⟩
abbrev main_call6_v1 : Ref sig .tc := ⟨.hbm, 187, rfl⟩
abbrev main_v93 : Ref sig .tc := ⟨.hbm, 188, rfl⟩
abbrev main_v94 : Ref sig .tc := ⟨.hbm, 189, rfl⟩
abbrev main_cst_33 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_cst_34 : Ref sig .tc := ⟨.hbm, 196, rfl⟩
abbrev main_v100 : Ref sig .tc := ⟨.hbm, 197, rfl⟩
abbrev main_cst_35 : Ref sig .tc := ⟨.hbm, 198, rfl⟩
abbrev main_v101 : Ref sig .tc := ⟨.hbm, 199, rfl⟩
abbrev main_cst_36 : Ref sig .tc := ⟨.hbm, 200, rfl⟩
abbrev main_v102 : Ref sig .tc := ⟨.hbm, 201, rfl⟩
abbrev main_v103 : Ref sig .tc := ⟨.hbm, 202, rfl⟩

abbrev nD : Nat := 1
abbrev τ : Topo := Topo.v7x

variable {F : FTy → Type} [FloatOps F]

class Facts₀ : Prop where
  reducesTo_S1x2048x32000_S1x2048_d2 : S1x2048x32000.ReducesTo [2] S1x2048
  h_S_ : 0 < S_.numel
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x1_S1x2048x32000_0_1_2 : S1x2048x1.BroadcastsInDim S1x2048x32000 (![0, 1, 2] : Fin 3 → Fin S1x2048x32000.rank)
  concatenates_S1x2048x1_S1x2048x1_S1x2048x2_d2 : Shape.Concatenates [S1x2048x1, S1x2048x1] S1x2048x2 2
  reducesTo_S1x2048x2_S1x2048_d2 : S1x2048x2.ReducesTo [2] S1x2048
  bcast_S1x2048x1_S1x2048x2_0_1_2 : S1x2048x1.BroadcastsInDim S1x2048x2 (![0, 1, 2] : Fin 3 → Fin S1x2048x2.rank)
  slices_S1x2048x2_S1x2048x1_0_0_0 : S1x2048x2.Slices ![0, 0, 0] S1x2048x1
  shapeCasts_S1x2048x1_S1x2048 : S1x2048x1.ShapeCasts S1x2048
  slices_S1x2048x2_S1x2048x1_0_0_1 : S1x2048x2.Slices ![0, 0, 1] S1x2048x1
  bcast_S_S1x2048x32000 : S_.BroadcastsInDim S1x2048x32000 (![] : Fin 0 → Fin S1x2048x32000.rank)
  bcast_S_S1x2048x1 : S_.BroadcastsInDim S1x2048x1 (![] : Fin 0 → Fin S1x2048x1.rank)
  shapeCasts_S1x2048x1_S2048x1x1 : S1x2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  bcast_S2048x1_S1x2048x1_1_2 : S2048x1.BroadcastsInDim S1x2048x1 (![1, 2] : Fin 2 → Fin S1x2048x1.rank)
  reducesTo_S1x2048_S_d0_1 : S1x2048.ReducesTo [0, 1] S_
  gather_S1x2048x32000_S2048x1x1_S1x2048x1_0_2_1_0_2_2_111_wf : GatherDims.WF S1x2048x32000 S2048x1x1 S1x2048x1 [0] [2] [1] [2] [0] 2 ![1, 1, 1]

variable [Facts₀]

def gather_S1x2048x32000_S2048x1x1_S1x2048x1_0_2_1_0_2_2_111 : GatherDims S1x2048x32000 S2048x1x1 S1x2048x1 where
  offsetDims := [0]
  collapsedSliceDims := [2]
  operandBatchingDims := [1]
  startIndicesBatchingDims := [0]
  startIndexMap := [2]
  indexVectorDim := 2
  sliceSizes := ![1, 1, 1]
  wf := gather_S1x2048x32000_S2048x1x1_S1x2048x1_0_2_1_0_2_2_111_wf

class Facts : Prop extends Facts₀ where

variable [Facts]
-- ==== Proof.KernelPieces.lean ====
/-
  What one grid point leaves in the output block, in each of the body's two cases.

  The body computes, from the point's six input blocks, a 1×1 numerator (the 16 tokens' weighted losses added up) and a
  one-entry denominator (the 16 mask values added up), places them at entries (0,0) and (0,1) of an otherwise zero
  1×8×128 tile, and adds that tile to the output block. At the first point of a core's run it first stores zeros, so
  it adds the tile to zeros; at every other point it adds it to what the point before left.
-/
import proofs.«406116_j41901700940018_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The point's numerator: the body's arithmetic from its six input blocks down to the 1×1 sum of the 16 tokens. -/
def numP (x0 x1 x2 : Vec F S16x32000 .f32) (x3 : Vec F S16x1 .i32) (x4 : Vec F S16x1 .f32) (x5 : Vec F S1x32000 .i32) :
    FVec F S1x1 .f32 :=
  k0_pay19 (k0_pay5 x3) (k0_pay6 x4) (k0_pay7 x5) (k0_pay8 x0) (k0_pay9 x1) (k0_pay10 x2) (k0_pay11 x1) (k0_pay12 x2)
    (k0_pay15 (k0_pay12 x2) (k0_pay13 x1) (FloatOps.ofBits .f32 0x4125F9D2#32) k0_pay14)
    (k0_pay16 (k0_pay12 x2) (k0_pay13 x1) (FloatOps.ofBits .f32 0x4125F9D2#32) k0_pay14)
    (k0_pay17 (k0_pay9 x1) (k0_pay10 x2) (k0_pay11 x1) (k0_pay12 x2)) k0_pay18

/-- The point's denominator: the 16 mask values added up. -/
def denP (x4 : Vec F S16x1 .f32) : FVec F S1 .f32 := k0_pay20 (k0_pay6 x4)

/-- A point that is not a core's first adds its tile to what the output block held. -/
theorem out_B (c : Dev nD) (i : grid0.Coords) (arg2 : Memref sig .tc .vmem S16x32000 .f32) (harg2 : arg2.IsWhole) (arg3 : Memref sig .tc .vmem S16x32000 .f32) (harg3 : arg3.IsWhole) (arg4 : Memref sig .tc .vmem S16x32000 .f32) (harg4 : arg4.IsWhole) (arg5 : Memref sig .tc .vmem S16x1 .i32) (harg5 : arg5.IsWhole) (arg6 : Memref sig .tc .vmem S16x1 .f32) (harg6 : arg6.IsWhole) (arg7 : Memref sig .tc .vmem S1x32000 .i32) (harg7 : arg7.IsWhole) (arg8 : Memref sig .tc .vmem S1x8x128 .f32) (harg8 : arg8.IsWhole) (hc0 : ¬cond0_0 i) (x0 : Vec F S16x32000 .f32) (x1 : Vec F S16x32000 .f32) (x2 : Vec F S16x32000 .f32) (x3 : Vec F S16x1 .i32) (x4 : Vec F S16x1 .f32) (x5 : Vec F S1x32000 .i32) (xo6 : Vec F S1x8x128 .f32) :
    out0_B_6 c i arg2 harg2 arg3 harg3 arg4 harg4 arg5 harg5 arg6 harg6 arg7 harg7 arg8 harg8 hc0 x0 x1 x2 x3 x4 x5 xo6 = k0_pay1 (numP x0 x1 x2 x3 x4 x5) (denP x4) xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz3]
  unfold numP denP
  simp only [View.readAt_eq_ld, harg2.read_unread, harg3.read_unread, harg4.read_unread, harg5.read_unread,
    harg6.read_unread, harg7.read_unread, harg8.read_unread, View.ld_unit_zero (S := S16x32000) hz2,
    View.ld_unit_zero (S := S16x1) hz2, View.ld_unit_zero (S := S1x32000) hz2, View.ld_unit_zero (S := S1x8x128) hz3]

/-- A core's first point stores zeros, reads them back, and adds its tile to them. -/
theorem out_A (c : Dev nD) (i : grid0.Coords) (arg2 : Memref sig .tc .vmem S16x32000 .f32) (harg2 : arg2.IsWhole) (arg3 : Memref sig .tc .vmem S16x32000 .f32) (harg3 : arg3.IsWhole) (arg4 : Memref sig .tc .vmem S16x32000 .f32) (harg4 : arg4.IsWhole) (arg5 : Memref sig .tc .vmem S16x1 .i32) (harg5 : arg5.IsWhole) (arg6 : Memref sig .tc .vmem S16x1 .f32) (harg6 : arg6.IsWhole) (arg7 : Memref sig .tc .vmem S1x32000 .i32) (harg7 : arg7.IsWhole) (arg8 : Memref sig .tc .vmem S1x8x128 .f32) (harg8 : arg8.IsWhole) (hc0 : cond0_0 i) (x0 : Vec F S16x32000 .f32) (x1 : Vec F S16x32000 .f32) (x2 : Vec F S16x32000 .f32) (x3 : Vec F S16x1 .i32) (x4 : Vec F S16x1 .f32) (x5 : Vec F S1x32000 .i32) :
    out0_A_6 c i arg2 harg2 arg3 harg3 arg4 harg4 arg5 harg5 arg6 harg6 arg7 harg7 arg8 harg8 hc0 x0 x1 x2 x3 x4 x5 = k0_pay1 (numP x0 x1 x2 x3 x4 x5) (denP x4) k0_pay2 := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x8x128) hz3, View.readCov_unit_zero (S := S1x8x128) _ hz3]
  unfold numP denP
  simp only [View.readAt_eq_ld, harg2.read_unread, harg3.read_unread, harg4.read_unread, harg5.read_unread,
    harg6.read_unread, harg7.read_unread, View.ld_unit_zero (S := S16x32000) hz2,
    View.ld_unit_zero (S := S16x1) hz2, View.ld_unit_zero (S := S1x32000) hz2]

end Cert.KernelIdeal.Pieces

end
-- ==== Proof.TokenSpec.lean ====
/-
  One token of the loss, as each program computes it from that token's three rows of 32000 numbers, its label and its
  mask value, over the extended reals.

  The kernel's way (tokK): the student's log-softmax; the two teachers' sums of p·log p, from which the two confidences,
  the weight of the first teacher as the logistic function of the confidences' difference and the other weight as one
  minus it; the divergence to the mixture from ONE sum over the half-sum of the probabilities; each divergence to the
  student as a difference of two sums; the cross-entropy by a sum that keeps the one column whose number is the label.

  The reference's way (tokR): the weights as a two-entry softmax; the divergence to the mixture as two sums of
  p·(log p − log m); each divergence to the student as one sum of p·(log p − log q); the cross-entropy by reading the
  log-softmax at the label, a negative label counted from the end and a label outside the row read as the fill value.
-/
import Idealize.ShloMosaic.PureOps.Ideal
import Mathlib.Algebra.BigOperators.Fin

noncomputable section

open scoped BigOperators

namespace Ewad

open Idealize.ShloMosaic

/-- A row over the vocabulary. -/
abbrev Row := Fin 32000 → EReal

abbrev wZero : EReal := Ideal.ofBits .f32 0x00000000#32
abbrev wOne : EReal := Ideal.ofBits .f32 0x3F800000#32
abbrev wHalf : EReal := Ideal.ofBits .f32 0x3F000000#32
abbrev wTwo : EReal := Ideal.ofBits .f32 0x40000000#32
abbrev wFive : EReal := Ideal.ofBits .f32 0x40A00000#32
abbrev wEps : EReal := Ideal.ofBits .f32 0x322BCC77#32
abbrev wLogV : EReal := Ideal.ofBits .f32 0x4125F9D2#32
abbrev wLn2 : EReal := Ideal.ofBits .f32 0x3F317218#32
abbrev wNegInf : EReal := Ideal.ofBits .f32 0xFF800000#32
abbrev wFill : EReal := Ideal.ofBits .f32 0x7FC00000#32
/-- The label that marks a token as ignored, −100 as a 32-bit word. -/
abbrev ignoreWord : BitVec 32 := 4294967196#32

/-- A row's maximum, folded from minus infinity. -/
def rowMax (x : Row) : EReal := (Finset.univ : Finset (Fin 32000)).fold max wNegInf x

/-! ## The kernel's way -/

def lsmK (x : Row) : Row := fun v => (x v - rowMax x) - Ideal.log (∑ u, Ideal.exp (x u - rowMax x))
/-- The sum of p · log p over a teacher's row of log-probabilities. -/
def sptK (t : Row) : EReal := ∑ v, Ideal.exp (t v) * t v
def confK (t : Row) : EReal := wOne - Ideal.div (min wLogV (max wEps (wZero - sptK t))) wLogV
def w32K (t32 t14 : Row) : EReal := Ideal.logistic (Ideal.div (confK t32 - confK t14) wOne)
def halfSum (t32 t14 : Row) : Row := fun v => wHalf * (Ideal.exp (t32 v) + Ideal.exp (t14 v))
def smK (t32 t14 : Row) : EReal := ∑ v, halfSum t32 t14 v * Ideal.log (halfSum t32 t14 v + wEps)
def jsdK (t32 t14 : Row) : EReal :=
  min wOne (max wZero (Ideal.div (wHalf * ((sptK t32 + sptK t14) - wTwo * smK t32 t14)) wLn2))
def gateK (t32 t14 : Row) : EReal := Ideal.logistic (wFive * ((wOne - jsdK t32 t14) - wHalf))
def klK (sl t : Row) : EReal := max (sptK t - ∑ v, Ideal.exp (t v) * lsmK sl v) wZero
def ceK (sl : Row) (l : BitVec 32) : EReal :=
  Scalar.select (IntOp.cmpi .ne l ignoreWord)
    (wZero - ∑ v : Fin 32000, Scalar.select (IntOp.cmpi .eq (BitVec.ofNat 32 v.val) l) (lsmK sl v) wZero) wZero
def tokK (sl t32 t14 : Row) (l : BitVec 32) (mk : EReal) : EReal :=
  (gateK t32 t14 * (w32K t32 t14 * klK sl t32 + (wOne - w32K t32 t14) * klK sl t14)
    + (wOne - gateK t32 t14) * ceK sl l) * mk

/-! ## The reference's way -/

def rowMaxR (x : Row) : EReal := max wNegInf (rowMax x)
def lsmR (x : Row) : Row := fun v => (x v - rowMaxR x) - Ideal.log (wZero + ∑ u, Ideal.exp (x u - rowMaxR x))
def confR (t : Row) : EReal :=
  wOne - Ideal.div (min wLogV (max wEps (-(wZero + ∑ v, Ideal.exp (t v) * t v)))) wLogV
/-- The two confidences side by side, each divided by the temperature one. -/
def pairR (t32 t14 : Row) : Fin 2 → EReal := fun k =>
  if k.val = 0 then Ideal.div (confR t32) wOne else Ideal.div (confR t14) wOne
def pairMaxR (t32 t14 : Row) : EReal :=
  max wNegInf ((Finset.univ : Finset (Fin 2)).fold max wNegInf (pairR t32 t14))
/-- The two-entry softmax of the pair. -/
def wR (t32 t14 : Row) (k : Fin 2) : EReal :=
  Ideal.div (Ideal.exp (pairR t32 t14 k - pairMaxR t32 t14))
    (wZero + ∑ j : Fin 2, Ideal.exp (pairR t32 t14 j - pairMaxR t32 t14))
def logMixR (t32 t14 : Row) : Row := fun v => Ideal.log (wHalf * (Ideal.exp (t32 v) + Ideal.exp (t14 v)) + wEps)
def jsdR (t32 t14 : Row) : EReal :=
  min wOne (max wZero (Ideal.div (wHalf *
    ((wZero + ∑ v, Ideal.exp (t32 v) * (t32 v - logMixR t32 t14 v))
      + (wZero + ∑ v, Ideal.exp (t14 v) * (t14 v - logMixR t32 t14 v)))) wLn2))
def gateR (t32 t14 : Row) : EReal :=
  Ideal.div wOne (wOne + Ideal.exp (-(wFive * ((wOne - jsdR t32 t14) - wHalf))))
def klR (sl t : Row) : EReal := max (wZero + ∑ v, Ideal.exp (t v) * (t v - lsmR sl v)) wZero
/-- The label with the ignored one replaced by zero. -/
def safeLabel (l : BitVec 32) : BitVec 32 := Scalar.select (IntOp.cmpi .ne l ignoreWord) l 0#32
/-- A negative label counted from the end of the row. -/
def wrapLabel (s : BitVec 32) : BitVec 32 := Scalar.select (IntOp.cmpi .slt s 0#32) (IntOp.addi s 32000#32) s
/-- Whether a wrapped label lies inside the row. -/
def inRow (w : BitVec 32) : BitVec 1 := IntOp.andi (IntOp.cmpi .sge w 0#32) (IntOp.cmpi .sle w 31999#32)
/-- The column a wrapped label reads: its signed value cut to the row. -/
def readCol (w : BitVec 32) : Fin 32000 := ⟨min w.toInt.toNat 31999, by omega⟩
def ceR (sl : Row) (l : BitVec 32) : EReal :=
  Scalar.select (IntOp.cmpi .ne l ignoreWord)
    (-(Scalar.select (inRow (wrapLabel (safeLabel l))) (lsmR sl (readCol (wrapLabel (safeLabel l)))) wFill)) wZero
def tokR (sl t32 t14 : Row) (l : BitVec 32) (mk : EReal) : EReal :=
  (gateR t32 t14 * (wR t32 t14 0 * klR sl t32 + wR t32 t14 1 * klR sl t14)
    + (wOne - gateR t32 t14) * ceR sl l) * mk

/-- The loss from the summed numerators and the summed mask. -/
def lossOf (num den : EReal) : EReal := Ideal.div num (max den wOne)

/-- What the added precondition says of one label: it is the ignored one, or it lies in the row. -/
def LabelOk (l : BitVec 32) : Prop :=
  IntOp.ori (IntOp.cmpi .eq l ignoreWord) (IntOp.andi (IntOp.cmpi .sge l 0#32) (IntOp.cmpi .slt l 32000#32)) = 1#1

end Ewad

end
-- ==== Proof.KernelRows.lean ====
/-
  The body's arithmetic read row by row: each intermediate of the kernel body, at row k of the point's block (and
  column v where it has columns), as the token quantity of TokenSpec over that row of the input blocks.
-/
import proofs.«406116_j41901700940018_3_alg».proof.Proof.KernelPieces
import proofs.«406116_j41901700940018_3_alg».proof.Proof.TokenSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.ValueIdx

namespace Ewad

open Cert.KernelIdeal

/-! ## The layout operations of the body, read at explicit coordinates -/

section Layout
variable {α : Type}

/-- A 16-vector viewed as a 16×1 column reads its row's entry. -/
theorem kr_col_apply (x : S16.Idx → α) (h : S16.ShapeCasts S16x1) (k : Fin 16) :
    shapeCast S16x1 x h (ix2 k (0 : Fin 1)) = x (ix1 k) := by
  refine shapeCast_apply x h _ _ ?_
  rw [Shape.rowMajor_val_one, Shape.rowMajor_val_two]
  show k.val = k.val * 1 + 0
  omega

/-- A 16×1 column spread over 32000 columns reads its row's entry everywhere in the row. -/
theorem kr_spread_apply (x : S16x1.Idx → α) (h : S16x1.Broadcasts S16x32000) (k : Fin 16) (v : Fin 32000) :
    broadcastTo S16x32000 x h (ix2 k v) = x (ix2 k (0 : Fin 1)) := by
  refine broadcastTo_apply x h _ _ fun a => ?_
  match a with
  | ⟨0, _⟩ => rfl
  | ⟨1, _⟩ => rfl

/-- The index a lane reduction inserts column v into, over row k, is (k, v). -/
theorem kr_lift (h : S16x32000.Reduces [1] S16) (k : Fin 16) (v : Fin 32000) :
    h.lift (ix1 k) v = ix2 k v := by
  funext c
  match c with
  | ⟨0, _⟩ => rfl
  | ⟨1, _⟩ => rfl

end Layout

/-- A lane sum of a 16×32000 block, kept as a 16×1 column, is at row k the sum over the row. -/
theorem kr_laneSum_apply (src : FVec Ideal S16x32000 .f32) (h : S16x32000.Reduces [1] S16)
    (hφ : FKind.Formats .f32) (hacc : (0x00000000#32 : BitVec 32) = FKind.add.neutral .f32 hφ)
    (hc : S16.ShapeCasts S16x1) (k : Fin 16) :
    shapeCast S16x1 (multiReduction (F := Ideal) .add [1] S16 src 0x00000000#32 h hφ hacc) hc (ix2 k (0 : Fin 1))
      = ∑ v : Fin 32000, src (ix2 k v) := by
  rw [kr_col_apply]
  refine (Ideal.multiReduction_add_single src _ h hφ hacc (ix1 k)).trans ?_
  exact Finset.sum_congr rfl fun v _ => congrArg src (kr_lift h k v)

/-- A lane maximum of a 16×32000 block, kept as a 16×1 column, is at row k the row's maximum. -/
theorem kr_laneMax_apply (src : FVec Ideal S16x32000 .f32) (h : S16x32000.Reduces [1] S16)
    (hφ : FKind.Formats .f32) (hacc : (0xFF800000#32 : BitVec 32) = FKind.maximumf.neutral .f32 hφ)
    (hc : S16.ShapeCasts S16x1) (k : Fin 16) :
    shapeCast S16x1 (multiReduction (F := Ideal) .maximumf [1] S16 src 0xFF800000#32 h hφ hacc) hc (ix2 k (0 : Fin 1))
      = rowMax (fun v => src (ix2 k v)) := by
  rw [kr_col_apply]
  refine (Ideal.multiReduction_maximumf_single src _ h hφ hacc (ix1 k)).trans ?_
  unfold rowMax
  have e : (src ∘ h.lift (ix1 k)) = fun v : Fin 32000 => src (ix2 k v) :=
    funext fun v => congrArg src (kr_lift h k v)
  rw [e]
  rfl

/-- The exponential of a block reads at an index as the exponential of the entry. -/
theorem kr_exp_apply {s : Shape} (a : FVec Ideal s .f32) (i : s.Idx) : exp a i = Ideal.exp (a i) := rfl
/-- The logarithm likewise. -/
theorem kr_log_apply {s : Shape} (a : FVec Ideal s .f32) (i : s.Idx) : log a i = Ideal.log (a i) := rfl
/-- The logistic function likewise. -/
theorem kr_logistic_apply {s : Shape} (a : FVec Ideal s .f32) (i : s.Idx) : logistic a i = Ideal.logistic (a i) := rfl

end Ewad

namespace Cert.KernelIdeal.Pieces

open Cert.KernelIdeal Cert.KernelIdeal.Gen Ewad

/-- Row k of a 16×32000 block. -/
def blkRow (x : Vec Ideal S16x32000 .f32) (k : Fin 16) : Row := fun v => x (ix2 k v)

theorem pay3_apply (x1 : Vec Ideal S16x32000 .f32) (k : Fin 16) (v : Fin 32000) :
    k0_pay3 (F := Ideal) x1 (ix2 k v) = x1 (ix2 k v) :=
  congrFun (shapeCast_self x1 _) (ix2 k v)
theorem pay4_apply (x2 : Vec Ideal S16x32000 .f32) (k : Fin 16) (v : Fin 32000) :
    k0_pay4 (F := Ideal) x2 (ix2 k v) = x2 (ix2 k v) :=
  congrFun (shapeCast_self x2 _) (ix2 k v)
theorem pay5_apply (x3 : Vec Ideal S16x1 .i32) (k : Fin 16) :
    k0_pay5 (F := Ideal) x3 (ix2 k (0 : Fin 1)) = x3 (ix2 k (0 : Fin 1)) :=
  congrFun (shapeCast_self x3 _) (ix2 k (0 : Fin 1))
theorem pay6_apply (x4 : Vec Ideal S16x1 .f32) (k : Fin 16) :
    k0_pay6 (F := Ideal) x4 (ix2 k (0 : Fin 1)) = x4 (ix2 k (0 : Fin 1)) :=
  congrFun (shapeCast_self x4 _) (ix2 k (0 : Fin 1))
theorem pay7_apply (x5 : Vec Ideal S1x32000 .i32) (v : Fin 32000) :
    k0_pay7 (F := Ideal) x5 (ix2 (0 : Fin 1) v) = x5 (ix2 (0 : Fin 1) v) :=
  congrFun (shapeCast_self x5 _) (ix2 (0 : Fin 1) v)
/-- The student's log-softmax. -/
theorem pay8_apply (x0 : Vec Ideal S16x32000 .f32) (k : Fin 16) (v : Fin 32000) :
    k0_pay8 (F := Ideal) x0 (ix2 k v) = lsmK (blkRow x0 k) v := by
  unfold k0_pay8
  simp only [shapeCast_self, subf_apply, kr_spread_apply, kr_log_apply]
  rw [kr_laneSum_apply _ reduces_S16x32000_S16 (.inl rfl) rfl shapeCasts_S16_S16x1 k]
  simp only [kr_exp_apply, subf_apply, kr_spread_apply,
    kr_laneMax_apply x0 reduces_S16x32000_S16 (.inl rfl) rfl shapeCasts_S16_S16x1 k]
  unfold lsmK blkRow
  rfl
theorem pay9_apply (x1 : Vec Ideal S16x32000 .f32) (k : Fin 16) (v : Fin 32000) :
    k0_pay9 (F := Ideal) x1 (ix2 k v) = Ideal.exp (x1 (ix2 k v)) := by
  show Ideal.exp (k0_pay3 (F := Ideal) x1 (ix2 k v)) = _
  rw [pay3_apply]
theorem pay10_apply (x2 : Vec Ideal S16x32000 .f32) (k : Fin 16) (v : Fin 32000) :
    k0_pay10 (F := Ideal) x2 (ix2 k v) = Ideal.exp (x2 (ix2 k v)) := by
  show Ideal.exp (k0_pay4 (F := Ideal) x2 (ix2 k v)) = _
  rw [pay4_apply]
/-- A teacher's sum of p · log p. -/
theorem pay11_apply (x1 : Vec Ideal S16x32000 .f32) (k : Fin 16) :
    k0_pay11 (F := Ideal) x1 (ix2 k (0 : Fin 1)) = sptK (blkRow x1 k) := by
  unfold k0_pay11
  refine (kr_laneSum_apply _ _ _ _ _ k).trans ?_
  unfold sptK blkRow
  refine Finset.sum_congr rfl fun v _ => ?_
  rw [mulf_apply, pay9_apply, pay3_apply]
theorem pay12_apply (x2 : Vec Ideal S16x32000 .f32) (k : Fin 16) :
    k0_pay12 (F := Ideal) x2 (ix2 k (0 : Fin 1)) = sptK (blkRow x2 k) := by
  unfold k0_pay12
  refine (kr_laneSum_apply _ _ _ _ _ k).trans ?_
  unfold sptK blkRow
  refine Finset.sum_congr rfl fun v _ => ?_
  rw [mulf_apply, pay10_apply, pay4_apply]
theorem pay13_apply (x1 : Vec Ideal S16x32000 .f32) (k : Fin 16) :
    k0_pay13 (F := Ideal) x1 (ix2 k (0 : Fin 1)) = wZero - sptK (blkRow x1 k) := by
  show wZero - k0_pay11 (F := Ideal) x1 (ix2 k (0 : Fin 1)) = _
  rw [pay11_apply]
theorem pay14_apply (k : Fin 16) : k0_pay14 (F := Ideal) (ix2 k (0 : Fin 1)) = wEps :=
  Ideal.ofBits_def _
/-- The first teacher's weight. -/
theorem pay15_apply (x1 x2 : Vec Ideal S16x32000 .f32) (k : Fin 16) :
    k0_pay15 (F := Ideal) (k0_pay12 x2) (k0_pay13 x1) (FloatOps.ofBits .f32 0x4125F9D2#32) k0_pay14 (ix2 k (0 : Fin 1))
      = w32K (blkRow x1 k) (blkRow x2 k) := by
  unfold k0_pay15
  simp only [kr_logistic_apply, divf_apply, subf_apply, minimumf_apply, maximumf_apply, broadcast_apply,
    Ideal.ofBits_def, pay12_apply, pay13_apply, pay14_apply]
  rfl
/-- The second teacher's weight. -/
theorem pay16_apply (x1 x2 : Vec Ideal S16x32000 .f32) (k : Fin 16) :
    k0_pay16 (F := Ideal) (k0_pay12 x2) (k0_pay13 x1) (FloatOps.ofBits .f32 0x4125F9D2#32) k0_pay14 (ix2 k (0 : Fin 1))
      = wOne - w32K (blkRow x1 k) (blkRow x2 k) := by
  unfold k0_pay16
  simp only [subf_apply, broadcast_apply, pay15_apply]
  rfl
/-- The divergence to the mixture, cut below at zero (the cut above at one comes later in the body). -/
theorem pay17_apply (x1 x2 : Vec Ideal S16x32000 .f32) (k : Fin 16) :
    k0_pay17 (F := Ideal) (k0_pay9 x1) (k0_pay10 x2) (k0_pay11 x1) (k0_pay12 x2) (ix2 k (0 : Fin 1))
      = max wZero (Ideal.div (wHalf * ((sptK (blkRow x1 k) + sptK (blkRow x2 k)) - wTwo * smK (blkRow x1 k) (blkRow x2 k))) wLn2) := by
  unfold k0_pay17
  simp only [maximumf_apply, divf_apply, mulf_apply, subf_apply, addf_apply, broadcast_apply, Ideal.ofBits_def,
    pay11_apply, pay12_apply]
  rw [kr_laneSum_apply _ reduces_S16x32000_S16 (.inl rfl) rfl shapeCasts_S16_S16x1 k]
  simp only [mulf_apply, addf_apply, kr_log_apply, broadcast_apply, pay9_apply, pay10_apply]
  unfold smK halfSum blkRow
  rfl
theorem pay18_apply (k : Fin 16) : k0_pay18 (F := Ideal) (ix2 k (0 : Fin 1)) = wOne :=
  Ideal.ofBits_def _

end Cert.KernelIdeal.Pieces

end
-- ==== Proof.KernelToken.lean ====
/-
  One grid point's numerator and denominator as sums over its 16 tokens, and the two entries of the tile the point adds
  to the output block: entry (0,0,0) gains the numerator, entry (0,0,1) the denominator.
-/
import proofs.«406116_j41901700940018_3_alg».proof.Proof.KernelRows

set_option maxRecDepth 16384

noncomputable section

open scoped BigOperators
open Idealize.ShloMosaic Idealize.ShloMosaic.ValueIdx

namespace Ewad

open Cert.KernelIdeal Cert.KernelIdeal.Gen

/-! ## Layout operations of the body, read at explicit coordinates -/

/-- Over row k, the index with column v put back on axis 1 is (k, v). -/
theorem tok_lift_col (k : Fin 16) (v : Fin 32000) :
    reduces_S16x32000_S16.lift (ix1 k) v = ix2 k v := by
  funext c
  match c with
  | ⟨0, _⟩ => rfl
  | ⟨1, _⟩ => rfl

/-- Over the one entry of the column sum, the index with row k put back on axis 0 is (k, 0). -/
theorem tok_lift_row (j : S1.Idx) (k : Fin 16) :
    reduces_S16x1_S1.lift j k = ix2 k (0 : Fin 1) := by
  funext c
  match c with
  | ⟨0, _⟩ => rfl
  | ⟨1, _⟩ =>
    refine Fin.ext ?_
    have h := (j ⟨0, by decide⟩).isLt
    show (j ⟨0, _⟩).val = 0
    have h' : (j ⟨0, by decide⟩).val < 1 := h
    omega

/-- A [16] vector viewed as a [16,1] column reads row k at (k, 0). -/
theorem tok_cast_col {α : Type} (x : S16.Idx → α) (k : Fin 16) :
    shapeCast S16x1 x shapeCasts_S16_S16x1 (ix2 k (0 : Fin 1)) = x (ix1 k) := by
  refine shapeCast_apply x _ _ _ ?_
  rw [Shape.rowMajor_val_one, Shape.rowMajor_val_two]
  show k.val = k.val * 1 + 0
  omega

/-- A [1] vector viewed as a [1,1] block reads its one entry everywhere. -/
theorem tok_cast_one {α : Type} (x : S1.Idx → α) (j : S1x1.Idx) :
    shapeCast S1x1 x shapeCasts_S1_S1x1 j = x (ix1 (0 : Fin 1)) := by
  refine shapeCast_apply x _ _ _ ?_
  rw [Shape.rowMajor_val_one, Shape.rowMajor_val_two]
  have h0 := idx2_lt0 j
  have h1 := idx2_lt1 j
  show 0 = (j 0).val * 1 + (j 1).val
  omega

/-- A [16,1] column broadcast along the columns reads row k's entry at (k, v). -/
theorem tok_bcast_col {α : Type} (x : S16x1.Idx → α) (k : Fin 16) (v : Fin 32000) :
    broadcastTo S16x32000 x broadcasts_S16x1_S16x32000 (ix2 k v) = x (ix2 k (0 : Fin 1)) := by
  refine broadcastTo_apply x _ _ _ fun a => ?_
  match a with
  | ⟨0, _⟩ => rfl
  | ⟨1, _⟩ => rfl

/-- A [1,32000] row broadcast along the rows reads column v's entry at (k, v). -/
theorem tok_bcast_row {α : Type} (x : S1x32000.Idx → α) (k : Fin 16) (v : Fin 32000) :
    broadcastTo S16x32000 x broadcasts_S1x32000_S16x32000 (ix2 k v) = x (ix2 (0 : Fin 1) v) := by
  refine broadcastTo_apply x _ _ _ fun a => ?_
  match a with
  | ⟨0, _⟩ => rfl
  | ⟨1, _⟩ => rfl

/-- A [1,1] block broadcast to the [8,128] tile reads its one entry everywhere. -/
theorem tok_bcast_tile {α : Type} (x : S1x1.Idx → α) (i : S8x128.Idx) :
    broadcastTo S8x128 x broadcasts_S1x1_S8x128 i = x (ix2 (0 : Fin 1) (0 : Fin 1)) := by
  refine broadcastTo_apply x _ _ _ fun a => ?_
  match a with
  | ⟨0, _⟩ => rfl
  | ⟨1, _⟩ => rfl

/-- An [8,128] tile viewed as a [1,8,128] block reads (b, c) at (0, b, c). -/
theorem tok_cast_tile {α : Type} (x : S8x128.Idx → α) (b : Fin 8) (c : Fin 128) :
    shapeCast S1x8x128 x shapeCasts_S8x128_S1x8x128 (ix3 (0 : Fin 1) b c) = x (ix2 b c) := by
  refine shapeCast_apply x _ _ _ ?_
  rw [Shape.rowMajor_val_two, Shape.rowMajor_val_three]
  show b.val * 128 + c.val = (0 * 8 + b.val) * 128 + c.val
  omega

/-- The sum over the columns of a [16,32000] block, kept as a [16,1] column, at row k. -/
theorem tok_rowsum (src : FVec Ideal S16x32000 .f32) (k : Fin 16) :
    shapeCast S16x1 (multiReduction (F := Ideal) .add [1] S16 src 0x00000000#32 reduces_S16x32000_S16 (.inl rfl) rfl)
        shapeCasts_S16_S16x1 (ix2 k (0 : Fin 1))
      = ∑ v : Fin 32000, src (ix2 k v) := by
  refine (tok_cast_col _ k).trans ?_
  refine (Ideal.multiReduction_add_single _ _ _ _ _ _).trans ?_
  exact Finset.sum_congr rfl fun v _ => congrArg src (tok_lift_col k v)

/-- The sum over the rows of a [16,1] column, at its one entry. -/
theorem tok_colsum (src : FVec Ideal S16x1 .f32) (j : S1.Idx) :
    multiReduction (F := Ideal) .add [0] S1 src 0x00000000#32 reduces_S16x1_S1 (.inl rfl) rfl j
      = ∑ k : Fin 16, src (ix2 k (0 : Fin 1)) := by
  refine (Ideal.multiReduction_add_single _ _ _ _ _ _).trans ?_
  exact Finset.sum_congr rfl fun k _ => congrArg src (tok_lift_row j k)

end Ewad

namespace Ewad

open Cert.KernelIdeal Cert.KernelIdeal.Gen

/-! ## Integer and remaining pointwise operations read at an index -/

theorem tok_andi_apply {s : Shape} {w : Nat} (a b : IVec s w) (i : s.Idx) : andi a b i = IntOp.andi (a i) (b i) := rfl
theorem tok_cmpi_apply {s : Shape} {w : Nat} (p : CmpIPredicate) (a b : IVec s w) (i : s.Idx) :
    cmpi p a b i = IntOp.cmpi p (a i) (b i) := rfl
theorem tok_logistic_apply {s : Shape} {φ : FTy} (a : FVec Ideal s φ) (i : s.Idx) :
    logistic a i = Ideal.logistic (a i) := rfl

/-- A select whose condition holds takes its first value. -/
theorem tok_select_pos {α : Type} {c : BitVec 1} (a b : α) (h : c = 1#1) : Scalar.select c a b = a := by
  rw [h]; exact select_one a b

/-- A select whose condition fails takes its second value. -/
theorem tok_select_neg {α : Type} {c : BitVec 1} (a b : α) (h : c = 0#1) : Scalar.select c a b = b := by
  rw [h]; exact select_zero a b

end Ewad

namespace Cert.KernelIdeal.Pieces

open Cert.KernelIdeal Cert.KernelIdeal.Gen Ewad

/-- The point's numerator is the sum over its 16 rows of the kernel's token value, when the column-number block holds
    the column numbers. -/
theorem numP_apply (x0 x1 x2 : Vec Ideal S16x32000 .f32) (x3 : Vec Ideal S16x1 .i32) (x4 : Vec Ideal S16x1 .f32)
    (x5 : Vec Ideal S1x32000 .i32) (hx5 : ∀ v : Fin 32000, x5 (ix2 (0 : Fin 1) v) = BitVec.ofNat 32 v.val) (j : S1x1.Idx) :
    numP (F := Ideal) x0 x1 x2 x3 x4 x5 j
      = ∑ k : Fin 16, tokK (blkRow x0 k) (blkRow x1 k) (blkRow x2 k) (x3 (ix2 k (0 : Fin 1))) (x4 (ix2 k (0 : Fin 1))) := by
  unfold numP k0_pay19
  dsimp only
  -- the outer view of the one-entry sum, then the sum over the 16 rows
  refine (tok_cast_one _ j).trans ?_
  refine (tok_colsum _ _).trans ?_
  refine Finset.sum_congr rfl fun k _ => ?_
  -- row k: every pointwise operation at (k, 0), the operands by their row readings
  simp only [mulf_apply, addf_apply, subf_apply, maximumf_apply, minimumf_apply, select_apply, broadcast_apply,
    tok_logistic_apply, tok_cmpi_apply, tok_bcast_col, tok_bcast_row,
    pay5_apply, pay6_apply, pay7_apply, pay8_apply, pay9_apply, pay10_apply, pay11_apply, pay12_apply,
    pay15_apply, pay16_apply, pay17_apply, pay18_apply, hx5]
  -- the three sums over the row's 32000 columns
  rw [tok_rowsum, tok_rowsum, tok_rowsum]
  simp only [mulf_apply, select_apply, broadcast_apply, tok_cmpi_apply, tok_bcast_col, tok_bcast_row,
    pay5_apply, pay7_apply, pay8_apply, pay9_apply, pay10_apply, hx5]
  simp only [Ideal.ofBits_def]
  unfold tokK gateK jsdK klK ceK
  rfl

/-- The point's denominator is the sum of its 16 mask values. -/
theorem denP_apply (x4 : Vec Ideal S16x1 .f32) (j : S1.Idx) :
    denP (F := Ideal) x4 j = ∑ k : Fin 16, x4 (ix2 k (0 : Fin 1)) := by
  unfold denP k0_pay20
  refine (tok_colsum _ j).trans ?_
  exact Finset.sum_congr rfl fun k _ => pay6_apply x4 k

/-- Entry (0,0,0) of the block gains the numerator. -/
theorem pay1_num (n : FVec Ideal S1x1 .f32) (d : FVec Ideal S1 .f32) (acc : Vec Ideal S1x8x128 .f32) :
    k0_pay1 (F := Ideal) n d acc (ix3 (0 : Fin 1) (0 : Fin 8) (0 : Fin 128))
      = acc (ix3 (0 : Fin 1) (0 : Fin 8) (0 : Fin 128)) + n (ix2 (0 : Fin 1) (0 : Fin 1)) := by
  unfold k0_pay1
  dsimp only
  rw [addf_apply]
  simp only [tok_cast_tile, select_apply, tok_bcast_tile, shapeCast_self, tok_andi_apply, tok_cmpi_apply,
    broadcast_apply]
  -- at (0,0) both coordinate tests hold
  rw [tok_select_pos _ _ (by decide)]

/-- Entry (0,0,1) of the block gains the denominator. -/
theorem pay1_den (n : FVec Ideal S1x1 .f32) (d : FVec Ideal S1 .f32) (acc : Vec Ideal S1x8x128 .f32) :
    k0_pay1 (F := Ideal) n d acc (ix3 (0 : Fin 1) (0 : Fin 8) (1 : Fin 128))
      = acc (ix3 (0 : Fin 1) (0 : Fin 8) (1 : Fin 128)) + d (ix1 (0 : Fin 1)) := by
  unfold k0_pay1
  dsimp only
  rw [addf_apply]
  simp only [tok_cast_tile, select_apply, tok_bcast_tile, shapeCast_self, tok_andi_apply, tok_cmpi_apply,
    broadcast_apply, tok_cast_one]
  -- at (0,1) the column test against 0 fails and the one against 1 holds
  rw [tok_select_neg _ _ (by decide), tok_select_pos _ _ (by decide)]

/-- The block of zeros a core's first point stores. -/
theorem pay2_apply (y : S1x8x128.Idx) : k0_pay2 (F := Ideal) y = wZero := by
  unfold k0_pay2
  rfl

end Cert.KernelIdeal.Pieces

end
-- ==== Proof.KernelAccum.lean ====
/-
  What the output block holds after each grid point, at its two live entries.

  A core's run is 64 consecutive points. Its first point leaves zero plus its own tile; every later point leaves what
  the point before left plus its own tile. So after point n the entry holds zero plus the tiles of the points from the
  start of n's run up to n, and after the last point of a run zero plus all 64 tiles of that run.
-/
import proofs.«406116_j41901700940018_3_alg».proof.Proof.KernelToken

set_option maxRecDepth 16384

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen Ewad

variable (m : (ℓ : Loc nD τ sig) → Buf (Elt Ideal) ℓ)

/-- The six input blocks of point t, each at its own shape. -/
abbrev xb0 (c : Dev nD) (t : Fin cfg0.N) : Vec Ideal S16x32000 .f32 := iblk m c 0 t
abbrev xb1 (c : Dev nD) (t : Fin cfg0.N) : Vec Ideal S16x32000 .f32 := iblk m c 1 t
abbrev xb2 (c : Dev nD) (t : Fin cfg0.N) : Vec Ideal S16x32000 .f32 := iblk m c 2 t
abbrev xb3 (c : Dev nD) (t : Fin cfg0.N) : Vec Ideal S16x1 .i32 := iblk m c 3 t
abbrev xb4 (c : Dev nD) (t : Fin cfg0.N) : Vec Ideal S16x1 .f32 := iblk m c 4 t
abbrev xb5 (c : Dev nD) (t : Fin cfg0.N) : Vec Ideal S1x32000 .i32 := iblk m c 5 t

/-- The numerator and the denominator point t adds. -/
def tileNum (c : Dev nD) (t : Fin cfg0.N) : EReal :=
  numP (F := Ideal) (xb0 m c t) (xb1 m c t) (xb2 m c t) (xb3 m c t) (xb4 m c t) (xb5 m c t) (ix2 (0 : Fin 1) (0 : Fin 1))
def tileDen (c : Dev nD) (t : Fin cfg0.N) : EReal := denP (F := Ideal) (xb4 m c t) (ix1 (0 : Fin 1))

/-- The same over the natural numbers, zero past the grid. -/
def numN (c : Dev nD) (n : ℕ) : EReal := if h : n < cfg0.N then tileNum m c ⟨n, h⟩ else 0
def denN (c : Dev nD) (n : ℕ) : EReal := if h : n < cfg0.N then tileDen m c ⟨n, h⟩ else 0

abbrev e000 : S1x8x128.Idx := ix3 (0 : Fin 1) (0 : Fin 8) (0 : Fin 128)
abbrev e001 : S1x8x128.Idx := ix3 (0 : Fin 1) (0 : Fin 8) (1 : Fin 128)

/-- A run's first point: zeros plus the point's tile. -/
theorem outsAt_first (c : Dev nD) (t : Fin cfg0.N) (h0 : t.val % 64 = 0) :
    outsAt0 m c t.val t.isLt
      = k0_pay1 (numP (xb0 m c t) (xb1 m c t) (xb2 m c t) (xb3 m c t) (xb4 m c t) (xb5 m c t)) (denP (xb4 m c t)) (k0_pay2 (F := Ideal)) :=
  (outsAt0_A m c t h0).trans (out_A ..)

/-- Any other point: what the point before left plus the point's tile. -/
theorem outsAt_next (c : Dev nD) (t : Fin cfg0.N) (h0 : ¬t.val % 64 = 0) :
    outsAt0 m c t.val t.isLt
      = k0_pay1 (numP (xb0 m c t) (xb1 m c t) (xb2 m c t) (xb3 m c t) (xb4 m c t) (xb5 m c t)) (denP (xb4 m c t))
          (outsAt0 m c (t.val - 1) (Nat.lt_of_le_of_lt (Nat.sub_le _ _) t.isLt)) :=
  (outsAt0_B m c t h0).trans (out_B ..)

/-- The closed form shared by the two entries: an entry that every point raises by g of the point holds, after point
    n, zero plus g over n's run so far. -/
theorem acc_entry (c : Dev nD) (e : S1x8x128.Idx) (g : ℕ → EReal)
    (hg : ∀ (t : Fin cfg0.N) (acc : Vec Ideal S1x8x128 .f32),
      k0_pay1 (F := Ideal) (numP (xb0 m c t) (xb1 m c t) (xb2 m c t) (xb3 m c t) (xb4 m c t) (xb5 m c t)) (denP (xb4 m c t)) acc e
        = acc e + g t.val) :
    ∀ (n : ℕ) (h : n < cfg0.N), outsAt0 m c n h e = wZero + ∑ j ∈ Finset.range (n % 64 + 1), g (n - n % 64 + j) := by
  intro n
  induction n with
  | zero =>
    intro h
    have := congrFun (outsAt_first m c ⟨0, h⟩ rfl) e
    rw [this, hg ⟨0, h⟩, pay2_apply]
    simp
  | succ n ih =>
    intro h
    by_cases h0 : (n + 1) % 64 = 0
    · have := congrFun (outsAt_first m c ⟨n + 1, h⟩ h0) e
      rw [this, hg ⟨n + 1, h⟩, pay2_apply, h0]
      simp
    · have := congrFun (outsAt_next m c ⟨n + 1, h⟩ h0) e
      rw [this, hg ⟨n + 1, h⟩]
      have hn : n < cfg0.N := Nat.lt_of_succ_lt h
      have e1 : outsAt0 m c ((⟨n + 1, h⟩ : Fin cfg0.N).val - 1) (Nat.lt_of_le_of_lt (Nat.sub_le _ _) (⟨n + 1, h⟩ : Fin cfg0.N).isLt) e
          = outsAt0 m c n hn e := rfl
      rw [e1, ih hn]
      have hm : (n + 1) % 64 = n % 64 + 1 := by omega
      have hs : n + 1 - (n % 64 + 1) = n - n % 64 := by omega
      rw [hm, hs, Finset.sum_range_succ _ (n % 64 + 1), add_assoc]
      congr 2
      show g (n + 1) = g (n - n % 64 + (n % 64 + 1))
      congr 1
      omega

/-- Entry (0,0,0) after point n: zero plus the numerators of n's run so far. -/
theorem acc_num (c : Dev nD) (n : ℕ) (h : n < cfg0.N) :
    outsAt0 m c n h e000 = wZero + ∑ j ∈ Finset.range (n % 64 + 1), numN m c (n - n % 64 + j) :=
  acc_entry m c e000 (numN m c) (fun t acc => by
    rw [pay1_num]
    show _ + tileNum m c t = _ + numN m c t.val
    unfold numN
    rw [dif_pos t.isLt]) n h

/-- Entry (0,0,1) after point n: zero plus the denominators of n's run so far. -/
theorem acc_den (c : Dev nD) (n : ℕ) (h : n < cfg0.N) :
    outsAt0 m c n h e001 = wZero + ∑ j ∈ Finset.range (n % 64 + 1), denN m c (n - n % 64 + j) :=
  acc_entry m c e001 (denN m c) (fun t acc => by
    rw [pay1_den]
    show _ + tileDen m c t = _ + denN m c t.val
    unfold denN
    rw [dif_pos t.isLt]) n h

end Cert.KernelIdeal.Pieces

end
-- ==== Proof.KernelArray.lean ====
/-
  The output array after the region. It has one 1×8×128 block per core; a block is written back once, after the last
  point of that core's run, so row q of the array ends holding what point 64·q + 63 left in the output block — zero
  plus all 64 tiles of run q at the two live entries.
-/
import proofs.«406116_j41901700940018_3_alg».proof.Proof.KernelAccum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen Ewad

variable (m : (ℓ : Loc nD τ sig) → Buf (Elt Ideal) ℓ)

/-- The output block after point n, over the natural numbers (zeros past the grid). -/
def outsN (c : Dev nD) (n : ℕ) : Vec Ideal S1x8x128 .f32 := if h : n < cfg0.N then outsAt0 m c n h else k0_pay2 (F := Ideal)

theorem outsN_of_lt (c : Dev nD) (n : ℕ) (h : n < cfg0.N) : outsN m c n = outsAt0 m c n h := dif_pos h

/-- The array after the region: row q is the block after the last point of run q. -/
def Gout (c : Dev nD) : S2x8x128.Idx → EReal := fun i => outsN m c (64 * (i 0).val + 63) (ix3 (0 : Fin 1) (i 1) (i 2))

/-- The output window's block index, decided over the grid: the run number, and zero on the two tile axes. -/
theorem idx6 : ∀ t : Fin cfg0.N, win0_6.index t (0 : Fin 3) = t.val / 64 ∧ win0_6.index t (1 : Fin 3) = 0 ∧ win0_6.index t (2 : Fin 3) = 0 :=
  (by decide +kernel : ∀ t : Fin grid0.N, _)

/-- What a writing-back point writes back is its block of the array. -/
theorem flushed6_eq (c : Dev nD) (t : Fin cfg0.N) (hf : (cfg0.win 6).flush t = true) :
    (dats m 0 c).flushed 6 t = ((cfg0.win 6).blk t).view.read (Elt Ideal) (Gout m c) := by
  have h63 : t.val % 64 = 63 := (flush0_6 t).mp hf
  obtain ⟨i0, i1, i2⟩ := idx6 t
  show (cfg0.win 6).cut (grid0.coords t) ((dats m 0 c).after 6 t) = _
  rw [after0_6]
  funext y
  rw [View.read_apply]
  show outsAt0 m c t.val t.isLt y = Gout m c (((cfg0.win 6).blk t).view.emb y)
  have hy0 : (y 0).val < 1 := (y 0).isLt
  have hidx : 64 * ((((cfg0.win 6).blk t).view.emb y) 0).val + 63 = t.val := by
    show 64 * (win0_6.index t (0 : Fin 3) * 1 + 1 * (y 0).val) + 63 = t.val
    omega
  unfold Gout
  rw [hidx, outsN_of_lt m c t.val t.isLt]
  congr 1
  funext a
  apply Fin.ext
  match a with
  | ⟨0, _⟩ => show (y 0).val = 0; omega
  | ⟨1, _⟩ => show (y 1).val = win0_6.index t (1 : Fin 3) * 8 + 1 * (y 1).val; omega
  | ⟨2, _⟩ => show (y 2).val = win0_6.index t (2 : Fin 3) * 128 + 1 * (y 2).val; omega

/-- An index of the array lies in point t's block iff each coordinate lies in the block's range on its axis. -/
theorem mem_blk6 (t : Fin cfg0.N) (i : S2x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v7).slice (win0_6.rect t)).set ↔ _
  rw [View.set_slice_whole, Rect.mem_set_unit]
  exact Iff.rfl

/-- The array after the region: every row is covered by the write-back of its run's last point. -/
theorem final6 (c : Dev nD) : (dats m 0 c).arrAt 6 cfg0.N = Gout m c :=
  (dats m 0 c).arrAt_eq_of_cover 6 (Gout m c) (flushed6_eq m c) fun i => by
    have hi0 : (i 0).val < 2 := (i 0).isLt
    have hi1 : (i 1).val < 8 := (i 1).isLt
    have hi2 : (i 2).val < 128 := (i 2).isLt
    have hN : cfg0.N = 128 := N_0
    have ht : 64 * (i 0).val + 63 < cfg0.N := by omega
    obtain ⟨e0, e1, e2⟩ := idx6 ⟨64 * (i 0).val + 63, ht⟩
    have e0' : win0_6.index ⟨64 * (i 0).val + 63, ht⟩ (0 : Fin 3) = (i 0).val := by rw [e0]; show (64 * (i 0).val + 63) / 64 = _; omega
    refine ⟨⟨64 * (i 0).val + 63, ht⟩, (flush0_6 _).mpr (by show (64 * (i 0).val + 63) % 64 = 63; omega), ?_⟩
    rw [mem_blk6]
    intro a
    match a with
    | ⟨0, _⟩ => show win0_6.index _ (0 : Fin 3) * 1 ≤ (i 0).val ∧ (i 0).val < win0_6.index _ (0 : Fin 3) * 1 + 1; rw [e0']; omega
    | ⟨1, _⟩ => show win0_6.index _ (1 : Fin 3) * 8 ≤ (i 1).val ∧ (i 1).val < win0_6.index _ (1 : Fin 3) * 8 + 8; rw [e1]; omega
    | ⟨2, _⟩ => show win0_6.index _ (2 : Fin 3) * 128 ≤ (i 2).val ∧ (i 2).val < win0_6.index _ (2 : Fin 3) * 128 + 128; rw [e2]; omega

/-- Row q's numerator entry: zero plus the 64 numerators of run q. -/
theorem Gout_num (c : Dev nD) (q : Fin 2) :
    Gout m c (ix3 q (0 : Fin 8) (0 : Fin 128)) = wZero + ∑ j ∈ Finset.range 64, numN m c (64 * q.val + j) := by
  have hq : q.val < 2 := q.isLt
  have hN : cfg0.N = 128 := N_0
  have h : 64 * q.val + 63 < cfg0.N := by omega
  show outsN m c (64 * q.val + 63) e000 = _
  rw [outsN_of_lt m c _ h, acc_num]
  have h1 : (64 * q.val + 63) % 64 = 63 := by omega
  have h2 : 64 * q.val + 63 - 63 = 64 * q.val := by omega
  rw [h1, h2]

/-- Row q's denominator entry: zero plus the 64 denominators of run q. -/
theorem Gout_den (c : Dev nD) (q : Fin 2) :
    Gout m c (ix3 q (0 : Fin 8) (1 : Fin 128)) = wZero + ∑ j ∈ Finset.range 64, denN m c (64 * q.val + j) := by
  have hq : q.val < 2 := q.isLt
  have hN : cfg0.N = 128 := N_0
  have h : 64 * q.val + 63 < cfg0.N := by omega
  show outsN m c (64 * q.val + 63) e001 = _
  rw [outsN_of_lt m c _ h, acc_den]
  have h1 : (64 * q.val + 63) % 64 = 63 := by omega
  have h2 : 64 * q.val + 63 - 63 = 64 * q.val := by omega
  rw [h1, h2]

end Cert.KernelIdeal.Pieces

end
-- ==== Proof.KernelHost.lean ====
/-
  The program's result. After the region the program takes entry (q, 0, 0) and entry (q, 0, 1) of the output array for
  the two cores q, adds each pair onto a zero, and divides the first sum by the larger of the second sum and one.
-/
import proofs.«406116_j41901700940018_3_alg».proof.Proof.KernelArray
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Pieces

open Cert.KernelIdeal Cert.KernelIdeal.Gen Ewad

variable (m : (ℓ : Loc nD τ sig) → Buf (Elt Ideal) ℓ) (ρ : Dev nD → PrngReg)

/-- A sum over the indices of a one-axis shape of extent two is a sum over the two coordinates. -/
theorem sum_S2 (f : S2.Idx → EReal) : ∑ i : S2.Idx, f i = ∑ q : Fin 2, f (ix1 q) :=
  Fintype.sum_equiv ⟨fun i => i 0, fun q => ix1 q, fun i => (eq_ix1 i).symm, fun q => rfl⟩ f (fun q => f (ix1 q))
    (fun i => congrArg f (eq_ix1 i))

/-- Entry q of the reshaped slice at offset (0, 0, o) is entry (q, 0, o) of the array. -/
theorem slice_read (G : S2x8x128.Idx → EReal) (o : Fin 128) (hs : S2x8x128.Slices ![0, 0, o.val] S2x1x1) (q : Fin 2) :
    shapeCast S2 (extractStridedSlice S2x1x1 ![0, 0, o.val] G hs) shapeCasts_S2x1x1_S2 (ix1 q) = G (ix3 q (0 : Fin 8) o) := by
  rw [shapeCast_apply _ shapeCasts_S2x1x1_S2 (ix1 q) (ix3 q (0 : Fin 1) (0 : Fin 1)) (by
    rw [Shape.rowMajor_val_three, Shape.rowMajor_val_one]
    show (q.val * 1 + 0) * 1 + 0 = q.val
    omega)]
  exact extractStridedSlice_apply _ _ hs _ (ix3 q (0 : Fin 8) o) (fun a => by
    match a with
    | ⟨0, _⟩ => show q.val = 0 + q.val; omega
    | ⟨1, _⟩ => show (0 : Nat) = 0 + 0; rfl
    | ⟨2, _⟩ => show o.val = o.val + 0; omega)

/-- The host lines after the region, over any output array: the two sums and the quotient. -/
theorem tail_of (G : S2x8x128.Idx → EReal) (j : S_.Idx) :
    Host.divf
      (Host.reduceAdd (shapeCast S2 (extractStridedSlice S2x1x1 ![0, 0, 0] G slices_S2x8x128_S2x1x1_0_0_0) shapeCasts_S2x1x1_S2)
        (constant (F := Ideal) S_ .f32 0x00000000#32) reducesTo_S2_S_d0 h_S_)
      (maximumf
        (Host.reduceAdd (shapeCast S2 (extractStridedSlice S2x1x1 ![0, 0, 1] G slices_S2x8x128_S2x1x1_0_0_1) shapeCasts_S2x1x1_S2)
          (constant (F := Ideal) S_ .f32 0x00000000#32) reducesTo_S2_S_d0 h_S_)
        (constant (F := Ideal) S_ .f32 0x3F800000#32)) j
      = lossOf (wZero + ∑ q : Fin 2, G (ix3 q (0 : Fin 8) (0 : Fin 128))) (wZero + ∑ q : Fin 2, G (ix3 q (0 : Fin 8) (1 : Fin 128))) := by
  unfold lossOf
  show Ideal.div
      (Ideal.hostReduceAdd reducesTo_S2_S_d0
        (shapeCast S2 (extractStridedSlice S2x1x1 ![0, 0, 0] G slices_S2x8x128_S2x1x1_0_0_0) shapeCasts_S2x1x1_S2) wZero j)
      (max (Ideal.hostReduceAdd reducesTo_S2_S_d0
        (shapeCast S2 (extractStridedSlice S2x1x1 ![0, 0, 1] G slices_S2x8x128_S2x1x1_0_0_1) shapeCasts_S2x1x1_S2) wZero j) wOne) = _
  rw [Ideal.hostReduceAdd_total reducesTo_S2_S_d0 (fun b => b.elim0), Ideal.hostReduceAdd_total reducesTo_S2_S_d0 (fun b => b.elim0),
    sum_S2, sum_S2]
  have e0 : ∀ q : Fin 2, shapeCast S2 (extractStridedSlice S2x1x1 ![0, 0, 0] G slices_S2x8x128_S2x1x1_0_0_0) shapeCasts_S2x1x1_S2 (ix1 q)
      = G (ix3 q (0 : Fin 8) (0 : Fin 128)) := fun q => slice_read G (0 : Fin 128) slices_S2x8x128_S2x1x1_0_0_0 q
  have e1 : ∀ q : Fin 2, shapeCast S2 (extractStridedSlice S2x1x1 ![0, 0, 1] G slices_S2x8x128_S2x1x1_0_0_1) shapeCasts_S2x1x1_S2 (ix1 q)
      = G (ix3 q (0 : Fin 8) (1 : Fin 128)) := fun q => slice_read G (1 : Fin 128) slices_S2x8x128_S2x1x1_0_0_1 q
  simp only [e0, e1]

theorem tail_value (c : Dev nD) :
    Pipeline.afterTail₀ cfgs (dats m) 0 (V0 m) [hostOps1] c main_v15
      = fun _ => lossOf (wZero + ∑ q : Fin 2, Gout m c (ix3 q (0 : Fin 8) (0 : Fin 128)))
          (wZero + ∑ q : Fin 2, Gout m c (ix3 q (0 : Fin 8) (1 : Fin 128))) := by
  unfold Pipeline.afterTail₀
  show StableHlo.after hostOps1 _ (Proc.devRef .tc main_v15) = _
  after_results
  have harr : Pipeline.withArrays (cfgs 0).spec c (V0 m c) (fun w => (dats m 0 c).arrAt w (cfgs 0).N) (Proc.tc.devRef main_v7) = Gout m c :=
    (Pipeline.withArrays_arr spec0 launch0.win.arr_inj c _ _ 6).trans (final6 m c)
  rw [harr]
  generalize Gout m c = G
  funext j
  exact tail_of G j

end Cert.KernelIdeal.Pieces

end
-- ==== Proof.KernelBlocks.lean ====
/-
  What the six input blocks of a grid point hold, in terms of the program's argument arrays.

  Before the kernel runs the program lays the three [1, 2048, 32000] arrays out as [2048, 32000], the labels and the mask
  as [2048, 1], and builds the row of column numbers 0 … 31999. Point t stages rows 16·t … 16·t + 15 of each of the
  first five and the whole row of column numbers. So row k of point t's block is token 16·t + k of the argument.
-/
import proofs.«406116_j41901700940018_3_alg».proof.Proof.KernelAccum

set_option maxRecDepth 16384

noncomputable section

open Idealize.ShloMosaic Idealize.ShloMosaic.TcCoe Idealize.SL.Sem Idealize.ShloMosaic.ValueIdx

namespace Ewad

open Cert.KernelIdeal Cert.KernelIdeal.Gen Cert.KernelIdeal.Pieces

variable (m : (ℓ : Loc nD τ sig) → Buf (Elt Ideal) ℓ)

/-! ## Where each window's block sits: block row t, block column 0; the sixth window always at (0, 0) -/

theorem blkIdx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blkIdx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blkIdx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem blkIdx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem blkIdx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem blkIdx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## A block entry is an entry of the laid-out array: row 16·t + k, the same column -/

theorem xb0_arr (c : Dev nD) (t : Fin cfg0.N) (k : Fin 16) (v : Fin 32000) (r : Fin 2048) (hr : r.val = k.val + 16 * t.val) :
    xb0 m c t (ix2 k v) = (V m c main_v0 : S2048x32000.Idx → EReal) (ix2 r v) := by
  unfold xb0 iblk
  rw [View.read_apply]
  show V m c main_v0 (((cfg0.win 0).blk t).view.emb (ix2 k v)) = V m c main_v0 (ix2 r v)
  refine congrArg _ ?_
  funext a
  apply Fin.ext
  match a with
  | ⟨0, _⟩ => show win0_0.index t 0 * 16 + 1 * k.val = r.val; rw [(blkIdx0 t).1]; omega
  | ⟨1, _⟩ => show win0_0.index t 1 * 32000 + 1 * v.val = v.val; rw [(blkIdx0 t).2]; omega

theorem xb1_arr (c : Dev nD) (t : Fin cfg0.N) (k : Fin 16) (v : Fin 32000) (r : Fin 2048) (hr : r.val = k.val + 16 * t.val) :
    xb1 m c t (ix2 k v) = (V m c main_v1 : S2048x32000.Idx → EReal) (ix2 r v) := by
  unfold xb1 iblk
  rw [View.read_apply]
  show V m c main_v1 (((cfg0.win 1).blk t).view.emb (ix2 k v)) = V m c main_v1 (ix2 r v)
  refine congrArg _ ?_
  funext a
  apply Fin.ext
  match a with
  | ⟨0, _⟩ => show win0_1.index t 0 * 16 + 1 * k.val = r.val; rw [(blkIdx1 t).1]; omega
  | ⟨1, _⟩ => show win0_1.index t 1 * 32000 + 1 * v.val = v.val; rw [(blkIdx1 t).2]; omega

theorem xb2_arr (c : Dev nD) (t : Fin cfg0.N) (k : Fin 16) (v : Fin 32000) (r : Fin 2048) (hr : r.val = k.val + 16 * t.val) :
    xb2 m c t (ix2 k v) = (V m c main_v2 : S2048x32000.Idx → EReal) (ix2 r v) := by
  unfold xb2 iblk
  rw [View.read_apply]
  show V m c main_v2 (((cfg0.win 2).blk t).view.emb (ix2 k v)) = V m c main_v2 (ix2 r v)
  refine congrArg _ ?_
  funext a
  apply Fin.ext
  match a with
  | ⟨0, _⟩ => show win0_2.index t 0 * 16 + 1 * k.val = r.val; rw [(blkIdx2 t).1]; omega
  | ⟨1, _⟩ => show win0_2.index t 1 * 32000 + 1 * v.val = v.val; rw [(blkIdx2 t).2]; omega

theorem xb3_arr (c : Dev nD) (t : Fin cfg0.N) (k : Fin 16) (r : Fin 2048) (hr : r.val = k.val + 16 * t.val) :
    xb3 m c t (ix2 k (0 : Fin 1)) = (V m c main_v3 : S2048x1.Idx → BitVec 32) (ix2 r (0 : Fin 1)) := by
  unfold xb3 iblk
  rw [View.read_apply]
  show V m c main_v3 (((cfg0.win 3).blk t).view.emb (ix2 k (0 : Fin 1))) = V m c main_v3 (ix2 r (0 : Fin 1))
  refine congrArg _ ?_
  funext a
  apply Fin.ext
  match a with
  | ⟨0, _⟩ => show win0_3.index t 0 * 16 + 1 * k.val = r.val; rw [(blkIdx3 t).1]; omega
  | ⟨1, _⟩ => show win0_3.index t 1 * 1 + 1 * (0 : Fin 1).val = (0 : Fin 1).val; rw [(blkIdx3 t).2]; rfl

theorem xb4_arr (c : Dev nD) (t : Fin cfg0.N) (k : Fin 16) (r : Fin 2048) (hr : r.val = k.val + 16 * t.val) :
    xb4 m c t (ix2 k (0 : Fin 1)) = (V m c main_v4 : S2048x1.Idx → EReal) (ix2 r (0 : Fin 1)) := by
  unfold xb4 iblk
  rw [View.read_apply]
  show V m c main_v4 (((cfg0.win 4).blk t).view.emb (ix2 k (0 : Fin 1))) = V m c main_v4 (ix2 r (0 : Fin 1))
  refine congrArg _ ?_
  funext a
  apply Fin.ext
  match a with
  | ⟨0, _⟩ => show win0_4.index t 0 * 16 + 1 * k.val = r.val; rw [(blkIdx4 t).1]; omega
  | ⟨1, _⟩ => show win0_4.index t 1 * 1 + 1 * (0 : Fin 1).val = (0 : Fin 1).val; rw [(blkIdx4 t).2]; rfl

theorem xb5_arr (c : Dev nD) (t : Fin cfg0.N) (v : Fin 32000) :
    xb5 m c t (ix2 (0 : Fin 1) v) = (V m c main_v6 : S1x32000.Idx → BitVec 32) (ix2 (0 : Fin 1) v) := by
  unfold xb5 iblk
  rw [View.read_apply]
  show V m c main_v6 (((cfg0.win 5).blk t).view.emb (ix2 (0 : Fin 1) v)) = V m c main_v6 (ix2 (0 : Fin 1) v)
  refine congrArg _ ?_
  funext a
  apply Fin.ext
  match a with
  | ⟨0, _⟩ => show win0_5.index t 0 * 1 + 1 * (0 : Fin 1).val = (0 : Fin 1).val; rw [(blkIdx5 t).1]; rfl
  | ⟨1, _⟩ => show win0_5.index t 1 * 32000 + 1 * v.val = v.val; rw [(blkIdx5 t).2]; omega

/-! ## The laid-out arrays as the region finds them: each a re-shaping of an argument, the sixth of the column numbers -/

theorem V_main_v0 (c : Dev nD) : (V m c main_v0 : S2048x32000.Idx → EReal)
    = shapeCast S2048x32000 (m ((c : Thread nD τ).loc main_arg0)) shapeCasts_S1x2048x32000_S2048x32000 := by
  show StableHlo.after hostOps0 (fun b => m (c, b)) (Proc.devRef .tc main_v0) = _
  after_results
  rfl
theorem V_main_v1 (c : Dev nD) : (V m c main_v1 : S2048x32000.Idx → EReal)
    = shapeCast S2048x32000 (m ((c : Thread nD τ).loc main_arg1)) shapeCasts_S1x2048x32000_S2048x32000 := by
  show StableHlo.after hostOps0 (fun b => m (c, b)) (Proc.devRef .tc main_v1) = _
  after_results
  rfl
theorem V_main_v2 (c : Dev nD) : (V m c main_v2 : S2048x32000.Idx → EReal)
    = shapeCast S2048x32000 (m ((c : Thread nD τ).loc main_arg2)) shapeCasts_S1x2048x32000_S2048x32000 := by
  show StableHlo.after hostOps0 (fun b => m (c, b)) (Proc.devRef .tc main_v2) = _
  after_results
  rfl
theorem V_main_v3 (c : Dev nD) : (V m c main_v3 : S2048x1.Idx → BitVec 32)
    = shapeCast S2048x1 (m ((c : Thread nD τ).loc main_arg3)) shapeCasts_S1x2048_S2048x1 := by
  show StableHlo.after hostOps0 (fun b => m (c, b)) (Proc.devRef .tc main_v3) = _
  after_results
  rfl
theorem V_main_v4 (c : Dev nD) : (V m c main_v4 : S2048x1.Idx → EReal)
    = shapeCast S2048x1 (m ((c : Thread nD τ).loc main_arg4)) shapeCasts_S1x2048_S2048x1 := by
  show StableHlo.after hostOps0 (fun b => m (c, b)) (Proc.devRef .tc main_v4) = _
  after_results
  rfl
theorem V_main_v6 (c : Dev nD) : (V m c main_v6 : S1x32000.Idx → BitVec 32)
    = shapeCast S1x32000 (iotaInDim S32000 32 0) shapeCasts_S32000_S1x32000 := by
  show StableHlo.after hostOps0 (fun b => m (c, b)) (Proc.devRef .tc main_v6) = _
  after_results
  rfl

/-- A [1, n] array laid out as [n, 1]: entry (r, 0) is entry (0, r). -/
theorem shapeCast_1n_n1_apply {α : Type} {n : ℕ} (x : (⟨2, ![1, n]⟩ : Shape).Idx → α)
    (h : (⟨2, ![1, n]⟩ : Shape).ShapeCasts ⟨2, ![n, 1]⟩) (r : Fin n) :
    shapeCast ⟨2, ![n, 1]⟩ x h (ix2 r (0 : Fin 1)) = x (ix2 (0 : Fin 1) r) :=
  shapeCast_apply x h _ _ (by
    rw [Shape.rowMajor_val_two, Shape.rowMajor_val_two]
    show 0 * n + r.val = r.val * 1 + 0
    omega)

end Ewad

namespace Cert.KernelIdeal.Pieces

open Cert.KernelIdeal Cert.KernelIdeal.Gen Ewad

variable (m : (ℓ : Loc nD τ sig) → Buf (Elt Ideal) ℓ)

theorem xb0_apply (c : Dev nD) (t : Fin cfg0.N) (k : Fin 16) (v : Fin 32000) (r : Fin 2048) (hr : r.val = k.val + 16 * t.val) :
    xb0 m c t (ix2 k v) = (m ((c : Thread nD τ).loc main_arg0) : S1x2048x32000.Idx → EReal) (ix3 (0 : Fin 1) r v) := by
  rw [xb0_arr m c t k v r hr, V_main_v0, shapeCast_1ab_ab_apply]
theorem xb1_apply (c : Dev nD) (t : Fin cfg0.N) (k : Fin 16) (v : Fin 32000) (r : Fin 2048) (hr : r.val = k.val + 16 * t.val) :
    xb1 m c t (ix2 k v) = (m ((c : Thread nD τ).loc main_arg1) : S1x2048x32000.Idx → EReal) (ix3 (0 : Fin 1) r v) := by
  rw [xb1_arr m c t k v r hr, V_main_v1, shapeCast_1ab_ab_apply]
theorem xb2_apply (c : Dev nD) (t : Fin cfg0.N) (k : Fin 16) (v : Fin 32000) (r : Fin 2048) (hr : r.val = k.val + 16 * t.val) :
    xb2 m c t (ix2 k v) = (m ((c : Thread nD τ).loc main_arg2) : S1x2048x32000.Idx → EReal) (ix3 (0 : Fin 1) r v) := by
  rw [xb2_arr m c t k v r hr, V_main_v2, shapeCast_1ab_ab_apply]
theorem xb3_apply (c : Dev nD) (t : Fin cfg0.N) (k : Fin 16) (r : Fin 2048) (hr : r.val = k.val + 16 * t.val) :
    xb3 m c t (ix2 k (0 : Fin 1)) = (m ((c : Thread nD τ).loc main_arg3) : S1x2048.Idx → BitVec 32) (ix2 (0 : Fin 1) r) := by
  rw [xb3_arr m c t k r hr, V_main_v3, shapeCast_1n_n1_apply]
theorem xb4_apply (c : Dev nD) (t : Fin cfg0.N) (k : Fin 16) (r : Fin 2048) (hr : r.val = k.val + 16 * t.val) :
    xb4 m c t (ix2 k (0 : Fin 1)) = (m ((c : Thread nD τ).loc main_arg4) : S1x2048.Idx → EReal) (ix2 (0 : Fin 1) r) := by
  rw [xb4_arr m c t k r hr, V_main_v4, shapeCast_1n_n1_apply]
/-- The sixth block is the row of column numbers at every point. -/
theorem xb5_apply (c : Dev nD) (t : Fin cfg0.N) (v : Fin 32000) : xb5 m c t (ix2 (0 : Fin 1) v) = BitVec.ofNat 32 v.val := by
  rw [xb5_arr m c t v, V_main_v6, shapeCast_a_1a_apply]
  rfl

end Cert.KernelIdeal.Pieces

end
-- ==== Proof.LossSpec.lean ====
/-
  The loss as one function of the five argument arrays, in the two arrangements the programs use.

  The reference sums the 2048 tokens in one sum. The kernel walks 128 blocks of 16 consecutive tokens, 64 blocks to a
  core: each block adds its 16 tokens, each core adds its 64 blocks onto a zero it starts from, and the two cores'
  totals are added at the end. Token k of block s of core c is token k + 16·(s + 64·c).
-/
import proofs.«406116_j41901700940018_3_alg».proof.Proof.TokenSpec
import Idealize.ShloMosaic.Lib.ValueIdx

noncomputable section

open scoped BigOperators

namespace Ewad

open Idealize.ShloMosaic Idealize.ShloMosaic.ValueIdx

/-- The three float arguments' shape, the labels' and the mask's. -/
abbrev SLogits : Shape := ⟨3, ![1, 2048, 32000]⟩
abbrev STokens : Shape := ⟨2, ![1, 2048]⟩

/-- Token r's row of a [1, 2048, 32000] array. -/
def rowOf (x : SLogits.Idx → EReal) (r : Fin 2048) : Row := fun v => x (ix3 (0 : Fin 1) r v)
/-- Token r's entry of a [1, 2048] array. -/
def atTok {α : Type} (x : STokens.Idx → α) (r : Fin 2048) : α := x (ix2 (0 : Fin 1) r)

/-- The token number of entry k of block s of core c. -/
def tokIx (c : Fin 2) (s : Fin 64) (k : Fin 16) : Fin 2048 := ⟨k.val + 16 * (s.val + 64 * c.val), by omega⟩

/-- The reference's loss: one sum over the tokens. -/
def lossR (x0 x1 x2 : SLogits.Idx → EReal) (x3 : STokens.Idx → BitVec 32) (x4 : STokens.Idx → EReal) : EReal :=
  lossOf (wZero + ∑ r : Fin 2048, tokR (rowOf x0 r) (rowOf x1 r) (rowOf x2 r) (atTok x3 r) (atTok x4 r))
    (wZero + ∑ r : Fin 2048, atTok x4 r)

/-- One block's numerator: its 16 tokens, the kernel's way. -/
def blockNum (x0 x1 x2 : SLogits.Idx → EReal) (x3 : STokens.Idx → BitVec 32) (x4 : STokens.Idx → EReal)
    (c : Fin 2) (s : Fin 64) : EReal :=
  ∑ k : Fin 16, tokK (rowOf x0 (tokIx c s k)) (rowOf x1 (tokIx c s k)) (rowOf x2 (tokIx c s k))
    (atTok x3 (tokIx c s k)) (atTok x4 (tokIx c s k))
/-- One block's denominator: its 16 mask values. -/
def blockDen (x4 : STokens.Idx → EReal) (c : Fin 2) (s : Fin 64) : EReal := ∑ k : Fin 16, atTok x4 (tokIx c s k)

/-- The kernel's loss: per core a zero plus its 64 blocks, then a zero plus the two cores. -/
def lossK (x0 x1 x2 : SLogits.Idx → EReal) (x3 : STokens.Idx → BitVec 32) (x4 : STokens.Idx → EReal) : EReal :=
  lossOf (wZero + ∑ c : Fin 2, (wZero + ∑ s : Fin 64, blockNum x0 x1 x2 x3 x4 c s))
    (wZero + ∑ c : Fin 2, (wZero + ∑ s : Fin 64, blockDen x4 c s))

end Ewad

end
-- ==== Proof.KernelValue.lean ====
/-
  The kernel program's run, read: its result is the kernel's arrangement of the loss (LossSpec's lossK) of the five
  argument arrays, and the arguments end unchanged. Row k of the blocks of point 64·q + s is token k + 16·(s + 64·q), so
  the point's numerator and denominator are that block's sums of the spec.
-/
import proofs.«406116_j41901700940018_3_alg».proof.Proof.KernelHost
import proofs.«406116_j41901700940018_3_alg».proof.Proof.KernelBlocks
import proofs.«406116_j41901700940018_3_alg».proof.Proof.LossSpec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen Ewad

variable (m : (ℓ : Loc nD τ sig) → Buf (Elt Ideal) ℓ) (ρ : Dev nD → PrngReg)

/-- The argument arrays as functions of their indices. -/
abbrev A0 (c : Dev nD) : SLogits.Idx → EReal := m ((c : Thread nD τ).loc main_arg0)
abbrev A1 (c : Dev nD) : SLogits.Idx → EReal := m ((c : Thread nD τ).loc main_arg1)
abbrev A2 (c : Dev nD) : SLogits.Idx → EReal := m ((c : Thread nD τ).loc main_arg2)
abbrev A3 (c : Dev nD) : STokens.Idx → BitVec 32 := m ((c : Thread nD τ).loc main_arg3)
abbrev A4 (c : Dev nD) : STokens.Idx → EReal := m ((c : Thread nD τ).loc main_arg4)

theorem point_lt (q : Fin 2) (s : Fin 64) : 64 * q.val + s.val < cfg0.N := by
  have hN : cfg0.N = 128 := N_0
  have := q.isLt; have := s.isLt; omega

/-- Point 64·q + s adds block s of core q's numerator. -/
theorem numN_eq (c : Dev nD) (q : Fin 2) (s : Fin 64) :
    numN m c (64 * q.val + s.val) = blockNum (A0 m c) (A1 m c) (A2 m c) (A3 m c) (A4 m c) q s := by
  have ht := point_lt q s
  unfold numN
  rw [dif_pos ht]
  unfold tileNum
  rw [numP_apply _ _ _ _ _ _ (xb5_apply m c ⟨_, ht⟩)]
  unfold blockNum
  refine Finset.sum_congr rfl (fun k _ => ?_)
  have hr : (tokIx q s k).val = k.val + 16 * (⟨64 * q.val + s.val, ht⟩ : Fin cfg0.N).val := by
    show k.val + 16 * (s.val + 64 * q.val) = k.val + 16 * (64 * q.val + s.val)
    omega
  have r0 : blkRow (xb0 m c ⟨_, ht⟩) k = rowOf (A0 m c) (tokIx q s k) := funext fun v => xb0_apply m c ⟨_, ht⟩ k v (tokIx q s k) hr
  have r1 : blkRow (xb1 m c ⟨_, ht⟩) k = rowOf (A1 m c) (tokIx q s k) := funext fun v => xb1_apply m c ⟨_, ht⟩ k v (tokIx q s k) hr
  have r2 : blkRow (xb2 m c ⟨_, ht⟩) k = rowOf (A2 m c) (tokIx q s k) := funext fun v => xb2_apply m c ⟨_, ht⟩ k v (tokIx q s k) hr
  rw [r0, r1, r2, xb3_apply m c ⟨_, ht⟩ k (tokIx q s k) hr, xb4_apply m c ⟨_, ht⟩ k (tokIx q s k) hr]
  rfl

/-- Point 64·q + s adds block s of core q's denominator. -/
theorem denN_eq (c : Dev nD) (q : Fin 2) (s : Fin 64) :
    denN m c (64 * q.val + s.val) = blockDen (A4 m c) q s := by
  have ht := point_lt q s
  unfold denN
  rw [dif_pos ht]
  unfold tileDen
  rw [denP_apply]
  unfold blockDen
  refine Finset.sum_congr rfl (fun k _ => ?_)
  have hr : (tokIx q s k).val = k.val + 16 * (⟨64 * q.val + s.val, ht⟩ : Fin cfg0.N).val := by
    show k.val + 16 * (s.val + 64 * q.val) = k.val + 16 * (64 * q.val + s.val)
    omega
  rw [xb4_apply m c ⟨_, ht⟩ k (tokIx q s k) hr]
  rfl

/-- The program's result buffer after the run is the kernel's arrangement of the loss. -/
theorem result_eq (c : Dev nD) :
    Pipeline.afterTail₀ cfgs (dats m) 0 (V0 m) [hostOps1] c main_v15
      = fun _ => lossK (A0 m c) (A1 m c) (A2 m c) (A3 m c) (A4 m c) := by
  rw [tail_value]
  funext _
  unfold lossK
  have hnum : ∀ q : Fin 2, Gout m c (ix3 q (0 : Fin 8) (0 : Fin 128))
      = wZero + ∑ s : Fin 64, blockNum (A0 m c) (A1 m c) (A2 m c) (A3 m c) (A4 m c) q s := by
    intro q
    rw [Gout_num, ← Fin.sum_univ_eq_sum_range (fun j => numN m c (64 * q.val + j)) 64]
    exact congrArg _ (Finset.sum_congr rfl (fun s _ => numN_eq m c q s))
  have hden : ∀ q : Fin 2, Gout m c (ix3 q (0 : Fin 8) (1 : Fin 128)) = wZero + ∑ s : Fin 64, blockDen (A4 m c) q s := by
    intro q
    rw [Gout_den, ← Fin.sum_univ_eq_sum_range (fun j => denN m c (64 * q.val + j)) 64]
    exact congrArg _ (Finset.sum_congr rfl (fun s _ => denN_eq m c q s))
  simp only [hnum, hden]

/-- The run, read: the result at the kernel's arrangement of the loss, the five arguments unchanged. -/
theorem run : θ_run defs (onTc (τ := τ) (main (F := Ideal))) ⟨m, fun _ => 0, ρ⟩ (fun r => ∀ c : Dev nD,
      r.2.mem ((c.tc : Thread nD τ).loc main_v15) = (fun _ => lossK (A0 m c) (A1 m c) (A2 m c) (A3 m c) (A4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Pieces

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.RefLogits.lean ====
/-
  The reference program's stages up to the two teacher weights, read at a token: the student's log-softmax, each
  teacher's confidence, and the two entries of the softmax over the pair of confidences.
-/
import proofs.«406116_j41901700940018_3_alg».proof.Proof.RefRead
import proofs.«406116_j41901700940018_3_alg».proof.Proof.LossSpec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx

namespace Ewad.Ref

open Cert.ReferenceIdeal Cert.ReferenceIdeal.Gen Cert.ReferenceIdeal.ReadP Ewad

/-- The reference's float arrays and its token arrays, as contents at the ideal instance. -/
abbrev RLogits := (⟨S1x2048x32000, .f32⟩ : BufTy).Contents (Elt Ideal)
abbrev RLabels := (⟨S1x2048, .i32⟩ : BufTy).Contents (Elt Ideal)
abbrev RMask := (⟨S1x2048, .f32⟩ : BufTy).Contents (Elt Ideal)

/-! ## Index equations

Each composed index function of the reference, at a token's coordinates, is the index built from those coordinates. -/

/-- Column k inserted into the token index (0, r) is (0, r, k). -/
private theorem lift_row (h : S1x2048x32000.Reduces [2] S1x2048) (r : Fin 2048) (k : Fin 32000) :
    h.lift (ix2 (0 : Fin 1) r) k = ix3 (0 : Fin 1) r k :=
  funext fun a => Fin.ext (by match a with | ⟨0, _⟩ => rfl | ⟨1, _⟩ => rfl | ⟨2, _⟩ => rfl)

/-- Entry k inserted into the token index (0, r) is (0, r, k), for the array of pairs. -/
private theorem lift_pair (h : S1x2048x2.Reduces [2] S1x2048) (r : Fin 2048) (k : Fin 2) :
    h.lift (ix2 (0 : Fin 1) r) k = ix3 (0 : Fin 1) r k :=
  funext fun a => Fin.ext (by match a with | ⟨0, _⟩ => rfl | ⟨1, _⟩ => rfl | ⟨2, _⟩ => rfl)

private theorem idx_c0v3 (r : Fin 2048) (v : Fin 32000) :
    idx_main_call0_v3 (idx_main_call0_v4 (ix3 (0 : Fin 1) r v)) = ix2 (0 : Fin 1) r :=
  funext fun a => by match a with | ⟨0, _⟩ => rfl | ⟨1, _⟩ => rfl

private theorem idx_c0v7 (r : Fin 2048) (k : Fin 32000) :
    idx_main_call0_v7 (ix2 (0 : Fin 1) r) k = ix3 (0 : Fin 1) r k :=
  funext fun a => by match a with | ⟨0, _⟩ => rfl | ⟨1, _⟩ => rfl | ⟨2, _⟩ => rfl

private theorem idx_c0v8 (r : Fin 2048) (v : Fin 32000) :
    idx_main_call0_v8 (idx_main_call0_v10 (ix3 (0 : Fin 1) r v)) = ix2 (0 : Fin 1) r :=
  funext fun a => by match a with | ⟨0, _⟩ => rfl | ⟨1, _⟩ => rfl

private theorem idx_v3 (r : Fin 2048) (k : Fin 32000) :
    idx_main_v3 (ix2 (0 : Fin 1) r) k = ix3 (0 : Fin 1) r k :=
  funext fun a => by match a with | ⟨0, _⟩ => rfl | ⟨1, _⟩ => rfl | ⟨2, _⟩ => rfl

private theorem idx_v12 (r : Fin 2048) (k : Fin 32000) :
    idx_main_v12 (ix2 (0 : Fin 1) r) k = ix3 (0 : Fin 1) r k :=
  funext fun a => by match a with | ⟨0, _⟩ => rfl | ⟨1, _⟩ => rfl | ⟨2, _⟩ => rfl

private theorem idx_v23 (r : Fin 2048) (c : Fin 1) :
    idx_main_v23 (ix3 (0 : Fin 1) r c) = ix2 (0 : Fin 1) r :=
  funext fun a => by match a with | ⟨0, _⟩ => rfl | ⟨1, _⟩ => rfl

private theorem idx_v24 (r : Fin 2048) (c : Fin 1) :
    idx_main_v24 (ix3 (0 : Fin 1) r c) = ix2 (0 : Fin 1) r :=
  funext fun a => by match a with | ⟨0, _⟩ => rfl | ⟨1, _⟩ => rfl

private theorem idx_v29 (r : Fin 2048) (k : Fin 2) :
    idx_main_v29 (idx_main_v30 (ix3 (0 : Fin 1) r k)) = ix2 (0 : Fin 1) r :=
  funext fun a => by match a with | ⟨0, _⟩ => rfl | ⟨1, _⟩ => rfl

private theorem idx_v33 (r : Fin 2048) (k : Fin 2) :
    idx_main_v33 (ix2 (0 : Fin 1) r) k = ix3 (0 : Fin 1) r k :=
  funext fun a => by match a with | ⟨0, _⟩ => rfl | ⟨1, _⟩ => rfl | ⟨2, _⟩ => rfl

private theorem idx_v34 (r : Fin 2048) (k : Fin 2) :
    idx_main_v34 (idx_main_v35 (ix3 (0 : Fin 1) r k)) = ix2 (0 : Fin 1) r :=
  funext fun a => by match a with | ⟨0, _⟩ => rfl | ⟨1, _⟩ => rfl

private theorem idx_v37 (r : Fin 2048) :
    idx_main_v37 (idx_main_v38 (ix2 (0 : Fin 1) r)) = ix3 (0 : Fin 1) r (0 : Fin 2) :=
  funext fun a => Fin.ext (by
    match a with
    | ⟨0, _⟩ => rfl
    | ⟨1, _⟩ => show (0 * 2048 + r.val) / 1 % 2048 = r.val; have := r.isLt; omega
    | ⟨2, _⟩ => rfl)

private theorem idx_v39 (r : Fin 2048) :
    idx_main_v39 (idx_main_v40 (ix2 (0 : Fin 1) r)) = ix3 (0 : Fin 1) r (1 : Fin 2) :=
  funext fun a => Fin.ext (by
    match a with
    | ⟨0, _⟩ => rfl
    | ⟨1, _⟩ => show (0 * 2048 + r.val) / 1 % 2048 = r.val; have := r.isLt; omega
    | ⟨2, _⟩ => rfl)

/-! ## The log-softmax call -/

/-- The call's max-reduce at token r: the row's maximum folded from minus infinity. -/
theorem ref_rowMax (x0 : RLogits) (r : Fin 2048) :
    val_main_call0_v0 (F := Ideal) x0 (ix2 (0 : Fin 1) r) = rowMax (rowOf x0 r) := by
  unfold val_main_call0_v0
  rw [Host.reduce_eq_fold_single _ _ _ reducesTo_S1x2048x32000_S1x2048_d2 (by decide) h_S_]
  have hf : (x0 ∘ (by decide : S1x2048x32000.Reduces [2] S1x2048).lift (ix2 (0 : Fin 1) r)) = rowOf x0 r :=
    funext fun k => congrArg x0 (lift_row _ r k)
  exact congrArg (fun f => Finset.fold max wNegInf f Finset.univ) hf

/-- The maximum with the broadcast minus infinity. -/
theorem ref_rowMaxR (x0 : RLogits) (r : Fin 2048) :
    val_main_call0_v2 (F := Ideal) x0 (ix2 (0 : Fin 1) r) = rowMaxR (rowOf x0 r) := by
  rw [val_main_call0_v2_apply, val_main_call0_v1_apply, val_main_call0_cst_0_apply, ref_rowMax]
  rfl

/-- The shifted row. -/
theorem ref_shift (x0 : RLogits) (r : Fin 2048) (v : Fin 32000) :
    val_main_call0_v5 (F := Ideal) x0 (ix3 (0 : Fin 1) r v) = rowOf x0 r v - rowMaxR (rowOf x0 r) := by
  rw [val_main_call0_v5_apply, val_main_call0_v4_apply, val_main_call0_v3_apply, idx_c0v3 r v, ref_rowMaxR]
  rfl

/-- The sum of the shifted row's exponentials, from the zero it starts at. -/
theorem ref_sumExp (x0 : RLogits) (r : Fin 2048) :
    val_main_call0_v7 (F := Ideal) x0 (ix2 (0 : Fin 1) r)
      = wZero + ∑ u, Ideal.exp (rowOf x0 r u - rowMaxR (rowOf x0 r)) := by
  rw [val_main_call0_v7_apply, val_main_call0_cst_1_apply]
  refine congrArg (wZero + ·) (Finset.sum_congr rfl fun k _ => ?_)
  rw [idx_c0v7 r k, val_main_call0_v6_apply, ref_shift]
  rfl

/-- The log-softmax call's result at token r, column v. -/
theorem ref_lsm (x0 : RLogits) (r : Fin 2048) (v : Fin 32000) :
    val_main_v0 (F := Ideal) x0 (ix3 (0 : Fin 1) r v) = lsmR (rowOf x0 r) v := by
  rw [val_main_v0_apply, ref_shift, val_main_call0_v10_apply, val_main_call0_v9_apply, val_main_call0_v8_apply,
    idx_c0v8 r v, ref_sumExp, Ideal.subf_def, Ideal.hostUnary_log_def]
  rfl

/-! ## The two confidences -/

/-- The first teacher's sum of p · log p, from the zero it starts at. -/
theorem ref_spt32 (x1 : RLogits) (r : Fin 2048) :
    val_main_v3 (F := Ideal) x1 (ix2 (0 : Fin 1) r) = wZero + ∑ v, Ideal.exp (rowOf x1 r v) * rowOf x1 r v := by
  rw [val_main_v3_apply, val_main_cst_apply]
  refine congrArg (wZero + ·) (Finset.sum_congr rfl fun k _ => ?_)
  rw [idx_v3 r k, val_main_v2_apply, val_main_v1_apply]
  rfl

/-- The second teacher's sum of p · log p. -/
theorem ref_spt14 (x2 : RLogits) (r : Fin 2048) :
    val_main_v12 (F := Ideal) x2 (ix2 (0 : Fin 1) r) = wZero + ∑ v, Ideal.exp (rowOf x2 r v) * rowOf x2 r v := by
  rw [val_main_v12_apply, val_main_cst_4_apply]
  refine congrArg (wZero + ·) (Finset.sum_congr rfl fun k _ => ?_)
  rw [idx_v12 r k, val_main_v11_apply, val_main_v10_apply]
  rfl

/-- The first teacher's confidence at token r. -/
theorem ref_conf32 (x1 : RLogits) (r : Fin 2048) :
    val_main_v9 (F := Ideal) x1 (ix2 (0 : Fin 1) r) = confR (rowOf x1 r) := by
  rw [val_main_v9_apply, val_main_v8_apply, val_main_cst_3_apply, val_main_v7_apply, val_main_v6_apply,
    val_main_cst_2_apply, val_main_v5_apply, val_main_call1_v4_apply, val_main_call1_v3_apply, val_main_cst_1_apply,
    val_main_call1_v2_apply, val_main_call1_v1_apply, val_main_call1_v0_apply, val_main_cst_0_apply,
    val_main_v4_apply, ref_spt32]
  rfl

/-- The second teacher's confidence at token r. -/
theorem ref_conf14 (x2 : RLogits) (r : Fin 2048) :
    val_main_v18 (F := Ideal) x2 (ix2 (0 : Fin 1) r) = confR (rowOf x2 r) := by
  rw [val_main_v18_apply, val_main_v17_apply, val_main_cst_8_apply, val_main_v16_apply, val_main_v15_apply,
    val_main_cst_7_apply, val_main_v14_apply, val_main_call2_v4_apply, val_main_call2_v3_apply, val_main_cst_6_apply,
    val_main_call2_v2_apply, val_main_call2_v1_apply, val_main_call2_v0_apply, val_main_cst_5_apply,
    val_main_v13_apply, ref_spt14]
  rfl

/-! ## The softmax over the pair of confidences -/

/-- The first confidence divided by the temperature one. -/
theorem ref_pair0 (x1 : RLogits) (r : Fin 2048) :
    val_main_v20 (F := Ideal) x1 (ix2 (0 : Fin 1) r) = Ideal.div (confR (rowOf x1 r)) wOne := by
  rw [val_main_v20_apply, val_main_v19_apply, val_main_cst_9_apply, ref_conf32]
  rfl

/-- The second confidence divided by the temperature one. -/
theorem ref_pair1 (x2 : RLogits) (r : Fin 2048) :
    val_main_v22 (F := Ideal) x2 (ix2 (0 : Fin 1) r) = Ideal.div (confR (rowOf x2 r)) wOne := by
  rw [val_main_v22_apply, val_main_v21_apply, val_main_cst_10_apply, ref_conf14]
  rfl

/-- The concatenation's entry k at token r: entry k of the pair. -/
theorem ref_cat (x1 x2 : RLogits) (r : Fin 2048) (k : Fin 2) :
    val_main_v25 (F := Ideal) x1 x2 (ix3 (0 : Fin 1) r k) = pairR (rowOf x1 r) (rowOf x2 r) k := by
  unfold val_main_v25
  match k with
  | ⟨0, _⟩ =>
    refine (concatenate_pair_apply_left _ _ _ concatenates_S1x2048x1_S1x2048x1_S1x2048x2_d2 _ rfl
      (ix3 (0 : Fin 1) r (0 : Fin 1))
      (fun b => by match b with | ⟨0, _⟩ => rfl | ⟨1, _⟩ => rfl | ⟨2, _⟩ => rfl)).trans ?_
    rw [val_main_v23_apply, idx_v23, ref_pair0]
    rfl
  | ⟨1, _⟩ =>
    refine (concatenate_pair_apply_right _ _ _ concatenates_S1x2048x1_S1x2048x1_S1x2048x2_d2 _ rfl rfl
      (ix3 (0 : Fin 1) r (0 : Fin 1))
      (fun b hb => by match b with | ⟨0, _⟩ => rfl | ⟨1, _⟩ => rfl | ⟨2, _⟩ => exact absurd rfl hb) rfl).trans ?_
    rw [val_main_v24_apply, idx_v24, ref_pair1]
    rfl

/-- The max-reduce over the pair at token r: the fold of the two entries from minus infinity. -/
theorem ref_pairFold (x1 x2 : RLogits) (r : Fin 2048) :
    val_main_v26 (F := Ideal) x1 x2 (ix2 (0 : Fin 1) r)
      = (Finset.univ : Finset (Fin 2)).fold max wNegInf (pairR (rowOf x1 r) (rowOf x2 r)) := by
  unfold val_main_v26
  rw [Host.reduce_eq_fold_single _ _ _ reducesTo_S1x2048x2_S1x2048_d2 (by decide) h_S_]
  have hf : (val_main_v25 (F := Ideal) x1 x2 ∘ (by decide : S1x2048x2.Reduces [2] S1x2048).lift (ix2 (0 : Fin 1) r))
      = pairR (rowOf x1 r) (rowOf x2 r) :=
    funext fun k => (congrArg (val_main_v25 (F := Ideal) x1 x2) (lift_pair _ r k)).trans (ref_cat x1 x2 r k)
  exact congrArg (fun f => Finset.fold max wNegInf f Finset.univ) hf

/-- The maximum with the broadcast minus infinity. -/
theorem ref_pairMax (x1 x2 : RLogits) (r : Fin 2048) :
    val_main_v28 (F := Ideal) x1 x2 (ix2 (0 : Fin 1) r) = pairMaxR (rowOf x1 r) (rowOf x2 r) := by
  rw [val_main_v28_apply, val_main_v27_apply, val_main_cst_12_apply, ref_pairFold]
  rfl

/-- The shifted pair's exponential, entry k. -/
theorem ref_pairExp (x1 x2 : RLogits) (r : Fin 2048) (k : Fin 2) :
    val_main_v32 (F := Ideal) x1 x2 (ix3 (0 : Fin 1) r k)
      = Ideal.exp (pairR (rowOf x1 r) (rowOf x2 r) k - pairMaxR (rowOf x1 r) (rowOf x2 r)) := by
  rw [val_main_v32_apply, val_main_v31_apply, ref_cat, val_main_v30_apply, val_main_v29_apply, idx_v29 r k,
    ref_pairMax]
  rfl

/-- The sum of the two exponentials, from the zero it starts at. -/
theorem ref_pairSum (x1 x2 : RLogits) (r : Fin 2048) :
    val_main_v33 (F := Ideal) x1 x2 (ix2 (0 : Fin 1) r)
      = wZero + ∑ j : Fin 2, Ideal.exp (pairR (rowOf x1 r) (rowOf x2 r) j - pairMaxR (rowOf x1 r) (rowOf x2 r)) := by
  rw [val_main_v33_apply, val_main_cst_13_apply]
  refine congrArg (wZero + ·) (Finset.sum_congr rfl fun k _ => ?_)
  rw [idx_v33 r k, ref_pairExp]

/-- The two-entry softmax, entry k. -/
theorem ref_soft (x1 x2 : RLogits) (r : Fin 2048) (k : Fin 2) :
    val_main_v36 (F := Ideal) x1 x2 (ix3 (0 : Fin 1) r k) = wR (rowOf x1 r) (rowOf x2 r) k := by
  rw [val_main_v36_apply, ref_pairExp, val_main_v35_apply, val_main_v34_apply, idx_v34 r k, ref_pairSum]
  rfl

/-- The first teacher's weight at token r: entry 0 of the two-entry softmax. -/
theorem ref_w32 (x1 x2 : RLogits) (r : Fin 2048) :
    val_main_v38 (F := Ideal) x1 x2 (ix2 (0 : Fin 1) r) = wR (rowOf x1 r) (rowOf x2 r) 0 := by
  rw [val_main_v38_apply, val_main_v37_apply, idx_v37 r, ref_soft]

/-- The second teacher's weight at token r: entry 1. -/
theorem ref_w14 (x1 x2 : RLogits) (r : Fin 2048) :
    val_main_v40 (F := Ideal) x1 x2 (ix2 (0 : Fin 1) r) = wR (rowOf x1 r) (rowOf x2 r) 1 := by
  rw [val_main_v40_apply, val_main_v39_apply, idx_v39 r, ref_soft]

end Ewad.Ref

end
-- ==== Proof.RefDiverge.lean ====
/-
  The reference program's gate and its two divergences to the student, read at a token.
-/
import proofs.«406116_j41901700940018_3_alg».proof.Proof.LossSpec
import proofs.«406116_j41901700940018_3_alg».proof.Proof.RefLogits
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx

namespace Ewad.Ref

open Cert.ReferenceIdeal Cert.ReferenceIdeal.Gen Cert.ReferenceIdeal.ReadP Ewad

/-! ## The index a sum over the vocabulary reads: column k of token r -/

theorem idx_v51_row (r : Fin 2048) (k : Fin 32000) :
    idx_main_v51 (ix2 (0 : Fin 1) r) k = ix3 (0 : Fin 1) r k :=
  funext fun a => Fin.ext (by match a with | ⟨0, _⟩ => rfl | ⟨1, _⟩ => rfl | ⟨2, _⟩ => rfl)

theorem idx_v54_row (r : Fin 2048) (k : Fin 32000) :
    idx_main_v54 (ix2 (0 : Fin 1) r) k = ix3 (0 : Fin 1) r k :=
  funext fun a => Fin.ext (by match a with | ⟨0, _⟩ => rfl | ⟨1, _⟩ => rfl | ⟨2, _⟩ => rfl)

theorem idx_v75_row (r : Fin 2048) (k : Fin 32000) :
    idx_main_v75 (ix2 (0 : Fin 1) r) k = ix3 (0 : Fin 1) r k :=
  funext fun a => Fin.ext (by match a with | ⟨0, _⟩ => rfl | ⟨1, _⟩ => rfl | ⟨2, _⟩ => rfl)

theorem idx_v80_row (r : Fin 2048) (k : Fin 32000) :
    idx_main_v80 (ix2 (0 : Fin 1) r) k = ix3 (0 : Fin 1) r k :=
  funext fun a => Fin.ext (by match a with | ⟨0, _⟩ => rfl | ⟨1, _⟩ => rfl | ⟨2, _⟩ => rfl)

/-! ## The divergence to the mixture -/

/-- The logarithm of the half-sum of the two teachers' probabilities plus eps, at token r, column v. -/
theorem ref_logMix (x1 x2 : RLogits) (r : Fin 2048) (v : Fin 32000) :
    val_main_v48 (F := Ideal) x1 x2 (ix3 (0 : Fin 1) r v) = logMixR (rowOf x1 r) (rowOf x2 r) v := by
  simp only [val_main_v48_apply, val_main_v47_apply, val_main_v46_apply, val_main_cst_15_apply, val_main_v45_apply,
    val_main_v44_apply, val_main_cst_14_apply, val_main_v43_apply, val_main_v41_apply, val_main_v42_apply,
    Ideal.hostUnary_log_def, Ideal.hostUnary_exp_def, Ideal.addf_def, Ideal.mulf_def, Ideal.ofBits_def]
  rfl

/-- The first teacher's sum of p · (log p − log m) at token r. -/
theorem ref_mix32 (x1 x2 : RLogits) (r : Fin 2048) :
    val_main_v51 (F := Ideal) x1 x2 (ix2 (0 : Fin 1) r)
      = wZero + ∑ v : Fin 32000, Ideal.exp (rowOf x1 r v) * (rowOf x1 r v - logMixR (rowOf x1 r) (rowOf x2 r) v) := by
  simp only [val_main_v51_apply, val_main_cst_16_apply, idx_v51_row, val_main_v50_apply, val_main_v49_apply,
    val_main_v41_apply, ref_logMix, Ideal.hostUnary_exp_def, Ideal.subf_def, Ideal.mulf_def, Ideal.ofBits_def]
  rfl

/-- The second teacher's sum of p · (log p − log m) at token r. -/
theorem ref_mix14 (x1 x2 : RLogits) (r : Fin 2048) :
    val_main_v54 (F := Ideal) x1 x2 (ix2 (0 : Fin 1) r)
      = wZero + ∑ v : Fin 32000, Ideal.exp (rowOf x2 r v) * (rowOf x2 r v - logMixR (rowOf x1 r) (rowOf x2 r) v) := by
  simp only [val_main_v54_apply, val_main_cst_17_apply, idx_v54_row, val_main_v53_apply, val_main_v52_apply,
    val_main_v42_apply, ref_logMix, Ideal.hostUnary_exp_def, Ideal.subf_def, Ideal.mulf_def, Ideal.ofBits_def]
  rfl

/-- The divergence to the mixture, in bits and cut to [0, 1], at token r. -/
theorem ref_jsd (x1 x2 : RLogits) (r : Fin 2048) :
    val_main_v60 (F := Ideal) x1 x2 (ix2 (0 : Fin 1) r) = jsdR (rowOf x1 r) (rowOf x2 r) := by
  simp only [val_main_v60_apply, val_main_call3_v4_apply, val_main_call3_v3_apply, val_main_cst_21_apply,
    val_main_call3_v2_apply, val_main_call3_v1_apply, val_main_call3_v0_apply, val_main_cst_20_apply,
    val_main_v59_apply, val_main_v58_apply, val_main_cst_19_apply, val_main_v57_apply, val_main_v56_apply,
    val_main_cst_18_apply, val_main_v55_apply, ref_mix32, ref_mix14,
    Ideal.minimumf_def, Ideal.maximumf_def, Ideal.hostDivf_def, Ideal.mulf_def, Ideal.addf_def, Ideal.ofBits_def]
  rfl

/-- The gate at token r. -/
theorem ref_gate (x1 x2 : RLogits) (r : Fin 2048) :
    val_main_v72 (F := Ideal) x1 x2 (ix2 (0 : Fin 1) r) = gateR (rowOf x1 r) (rowOf x2 r) := by
  simp only [val_main_v72_apply, val_main_v71_apply, val_main_cst_26_apply, val_main_v70_apply, val_main_v69_apply,
    val_main_cst_25_apply, val_main_v68_apply, val_main_v67_apply, val_main_v66_apply, val_main_v65_apply,
    val_main_cst_24_apply, val_main_v64_apply, val_main_v63_apply, val_main_cst_23_apply, val_main_v62_apply,
    val_main_v61_apply, val_main_cst_22_apply, ref_jsd,
    Ideal.hostDivf_def, Ideal.addf_def, Ideal.hostUnary_exp_def, Ideal.hostNegf_def, Ideal.negf_def, Ideal.mulf_def,
    Ideal.subf_def, Ideal.ofBits_def]
  rfl

/-! ## The divergences to the student -/

/-- The first teacher's divergence to the student at token r. -/
theorem ref_kl32 (x0 x1 : RLogits) (r : Fin 2048) :
    val_main_v77 (F := Ideal) x0 x1 (ix2 (0 : Fin 1) r) = klR (rowOf x0 r) (rowOf x1 r) := by
  simp only [val_main_v77_apply, val_main_v76_apply, val_main_cst_28_apply, val_main_v75_apply, val_main_cst_27_apply,
    idx_v75_row, val_main_v74_apply, val_main_v73_apply, val_main_v41_apply, ref_lsm,
    Ideal.maximumf_def, Ideal.hostUnary_exp_def, Ideal.subf_def, Ideal.mulf_def, Ideal.ofBits_def]
  rfl

/-- The second teacher's divergence to the student at token r. -/
theorem ref_kl14 (x0 x2 : RLogits) (r : Fin 2048) :
    val_main_v82 (F := Ideal) x0 x2 (ix2 (0 : Fin 1) r) = klR (rowOf x0 r) (rowOf x2 r) := by
  simp only [val_main_v82_apply, val_main_v81_apply, val_main_cst_30_apply, val_main_v80_apply, val_main_cst_29_apply,
    idx_v80_row, val_main_v79_apply, val_main_v78_apply, val_main_v42_apply, ref_lsm,
    Ideal.maximumf_def, Ideal.hostUnary_exp_def, Ideal.subf_def, Ideal.mulf_def, Ideal.ofBits_def]
  rfl

end Ewad.Ref

end
-- ==== Proof.RefCross.lean ====
/-
  The reference program's cross-entropy, read at a token: the label with the ignored one replaced by zero, a negative
  label counted from the end, the log-softmax read at that column (the fill value if the column lies outside the row),
  negated, and zero at an ignored token.
-/
import proofs.«406116_j41901700940018_3_alg».proof.Proof.LossSpec
import proofs.«406116_j41901700940018_3_alg».proof.Proof.RefLogits
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx

namespace Ewad.Ref

open Cert.ReferenceIdeal Cert.ReferenceIdeal.Gen Cert.ReferenceIdeal.ReadP Ewad

namespace Cross

/-! ## The indices the layout operations read, at a token -/

/-- The broadcast of the safe label to [1, 2048, 1] reads token r at (0, r, 0). -/
theorem idx_v89_tok (r : Fin 2048) :
    idx_main_v89 (ix3 (0 : Fin 1) r (0 : Fin 1)) = ix2 (0 : Fin 1) r := by
  funext a
  match a with
  | ⟨0, _⟩ => rfl
  | ⟨1, _⟩ => rfl

/-- The reshape to [2048, 1, 1] reads (0, r, 0) at (r, 0, 0). -/
theorem idx_c5v5_tok (r : Fin 2048) :
    idx_main_call5_v5 (ix3 r (0 : Fin 1) (0 : Fin 1)) = ix3 (0 : Fin 1) r (0 : Fin 1) := by
  funext a
  match a with
  | ⟨0, _⟩ => rfl
  | ⟨1, _⟩ =>
    refine Fin.ext ?_
    show ((r.val * 1 + 0) * 1 + 0) / 1 % 2048 = r.val
    have := r.isLt
    omega
  | ⟨2, _⟩ => rfl

/-- The broadcast of the reduced mask to [1, 2048, 1] reads (r, 0) at (0, r, 0). -/
theorem idx_c5v14_tok (r : Fin 2048) :
    idx_main_call5_v14 (ix3 (0 : Fin 1) r (0 : Fin 1)) = ix2 r (0 : Fin 1) := by
  funext a
  match a with
  | ⟨0, _⟩ => rfl
  | ⟨1, _⟩ => rfl

/-- The reshape to [1, 2048] reads (0, r, 0) at (0, r). -/
theorem idx_v91_tok (r : Fin 2048) :
    idx_main_v91 (ix2 (0 : Fin 1) r) = ix3 (0 : Fin 1) r (0 : Fin 1) := by
  funext a
  match a with
  | ⟨0, _⟩ => rfl
  | ⟨1, _⟩ =>
    refine Fin.ext ?_
    show (0 * 2048 + r.val) / 1 % 2048 = r.val
    have := r.isLt
    omega
  | ⟨2, _⟩ => rfl

/-! ## The label's stages -/

/-- Whether token r's label is not the ignored one. -/
theorem ref_valid (x3 : RLabels) (r : Fin 2048) :
    val_main_v87 (F := Ideal) x3 (ix2 (0 : Fin 1) r)
      = IntOp.cmpi .ne (x3 (ix2 (0 : Fin 1) r)) ignoreWord := by
  rw [val_main_v87_apply, val_main_v86_apply, val_main_c_apply]

/-- The safe label at token r. -/
theorem ref_safe (x3 : RLabels) (r : Fin 2048) :
    val_main_v88 (F := Ideal) x3 (ix2 (0 : Fin 1) r) = safeLabel (x3 (ix2 (0 : Fin 1) r)) := by
  unfold safeLabel
  rw [val_main_v88_apply, ref_valid, val_main_call4_v1_apply, val_main_call4_v0_apply, val_main_c_31_apply]

/-- The safe label broadcast, at (0, r, 0). -/
theorem ref_safe3 (x3 : RLabels) (r : Fin 2048) :
    val_main_v89 (F := Ideal) x3 (ix3 (0 : Fin 1) r (0 : Fin 1)) = safeLabel (x3 (ix2 (0 : Fin 1) r)) := by
  rw [val_main_v89_apply, idx_v89_tok, ref_safe]

/-- The wrapped label at (0, r, 0). -/
theorem ref_wrap (x3 : RLabels) (r : Fin 2048) :
    val_main_call5_v4 (F := Ideal) x3 (ix3 (0 : Fin 1) r (0 : Fin 1))
      = wrapLabel (safeLabel (x3 (ix2 (0 : Fin 1) r))) := by
  unfold wrapLabel
  rw [val_main_call5_v4_apply, val_main_call5_v1_apply, val_main_call5_v3_apply, ref_safe3,
    val_main_call5_v0_apply, val_main_call5_c_apply, val_main_call5_v2_apply, val_main_call5_c_0_apply]

/-- The wrapped label reshaped, at (r, 0, 0). -/
theorem ref_wrap3 (x3 : RLabels) (r : Fin 2048) :
    val_main_call5_v5 (F := Ideal) x3 (ix3 r (0 : Fin 1) (0 : Fin 1))
      = wrapLabel (safeLabel (x3 (ix2 (0 : Fin 1) r))) := by
  rw [val_main_call5_v5_apply, idx_c5v5_tok, ref_wrap]

/-- Whether the wrapped label lies in the row, at (r, 0, 0). -/
theorem ref_inrow3 (x3 : RLabels) (r : Fin 2048) :
    val_main_call5_v11 (F := Ideal) x3 (ix3 r (0 : Fin 1) (0 : Fin 1))
      = inRow (wrapLabel (safeLabel (x3 (ix2 (0 : Fin 1) r)))) := by
  unfold inRow
  rw [val_main_call5_v11_apply, val_main_call5_v7_apply, val_main_call5_v10_apply, ref_wrap3,
    val_main_call5_v6_apply, val_main_call5_c_2_apply, val_main_call5_v9_apply, val_main_call5_v8_apply,
    val_main_call5_c_1_apply]

/-! ## The and-reduce over the axis of extent one -/

/-- Anding the true bit onto a bit leaves it. -/
theorem andi_true (a : BitVec 1) : IntOp.andi a 1#1 = a := by
  revert a
  decide

/-- A fold over the one coordinate of an axis of extent one. -/
theorem fold_fin_one {α : Type} {n : Nat} (hn : n = 1) (op : α → α → α) [Std.Commutative op] [Std.Associative op]
    (b : α) (f : Fin n → α) :
    (Finset.univ : Finset (Fin n)).fold op b f = op (f ⟨0, by omega⟩) b := by
  subst hn
  rw [show (Finset.univ : Finset (Fin 1)) = {0} from rfl]
  exact Finset.fold_singleton

/-- An and-reduce from the true bit over the last axis of a [2048, 1, 1] array, at (r, 0): the array at (r, 0, 0). -/
theorem reduce_tok (x : IVec S2048x1x1 1) (init : IVec S_ 1) (hi : ∀ i, init i = 1#1) (r : Fin 2048) :
    Host.reduce IntOp.andi x init reducesTo_S2048x1x1_S2048x1_d2 h_S_ (ix2 r (0 : Fin 1))
      = x (ix3 r (0 : Fin 1) (0 : Fin 1)) := by
  have hR : S2048x1x1.Reduces [2] S2048x1 := by decide
  rw [Host.reduce_eq_fold_single IntOp.andi _ _ reducesTo_S2048x1x1_S2048x1_d2 hR h_S_,
    fold_fin_one (show S2048x1x1.size 2 = 1 from rfl), hi, andi_true]
  show x (hR.lift (ix2 r (0 : Fin 1)) ⟨0, _⟩) = _
  have hl : hR.lift (ix2 r (0 : Fin 1)) ⟨0, by decide⟩ = ix3 r (0 : Fin 1) (0 : Fin 1) := by
    funext a
    match a with
    | ⟨0, _⟩ => exact Fin.ext rfl
    | ⟨1, _⟩ => exact Fin.ext rfl
    | ⟨2, _⟩ => exact Fin.ext rfl
  rw [hl]

/-- The reduced mask at (r, 0) is the mask at (r, 0, 0). -/
theorem ref_inrow2 (x3 : RLabels) (r : Fin 2048) :
    val_main_call5_v12 (F := Ideal) x3 (ix2 r (0 : Fin 1))
      = inRow (wrapLabel (safeLabel (x3 (ix2 (0 : Fin 1) r)))) := by
  unfold val_main_call5_v12
  rw [reduce_tok _ _ (fun i => val_main_call5_c_3_apply i), ref_inrow3]

/-- The mask broadcast, at (0, r, 0). -/
theorem ref_mask (x3 : RLabels) (r : Fin 2048) :
    val_main_call5_v14 (F := Ideal) x3 (ix3 (0 : Fin 1) r (0 : Fin 1))
      = inRow (wrapLabel (safeLabel (x3 (ix2 (0 : Fin 1) r)))) := by
  rw [val_main_call5_v14_apply, idx_c5v14_tok, ref_inrow2]

/-! ## The gather -/

/-- The gather's dimension numbers. -/
abbrev takeDims3 : GatherDims S1x2048x32000 S2048x1x1 S1x2048x1 := gather_S1x2048x32000_S2048x1x1_S1x2048x1_0_2_1_0_2_2_111

/-- The gather at (0, r, 0) reads its operand at (0, r, c), c the start index at (r, 0, 0) read signed and cut to the
    row. -/
theorem gather_tok {α : Type} (x : S1x2048x32000.Idx → α) (idx : IVec S2048x1x1 32) (r : Fin 2048) :
    Host.gather gather_S1x2048x32000_S2048x1x1_S1x2048x1_0_2_1_0_2_2_111 x idx (ix3 (0 : Fin 1) r (0 : Fin 1))
      = x (ix3 (0 : Fin 1) r (readCol (idx (ix3 r (0 : Fin 1) (0 : Fin 1))))) := by
  unfold Host.gather
  congr 1
  funext a
  refine Fin.ext ?_
  match a with
  | ⟨0, _⟩ => rfl
  | ⟨1, h1⟩ =>
    show takeDims3.start (ix3 (0 : Fin 1) r (0 : Fin 1)) idx ⟨1, h1⟩ + takeDims3.batchCoord (ix3 (0 : Fin 1) r (0 : Fin 1)) ⟨1, h1⟩
      + takeDims3.offCoord (ix3 (0 : Fin 1) r (0 : Fin 1)) ⟨1, h1⟩ = r.val
    have hb : (⟨1, h1⟩ : Fin 3) ∈ takeDims3.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    rfl
  | ⟨2, h2⟩ =>
    show takeDims3.start (ix3 (0 : Fin 1) r (0 : Fin 1)) idx ⟨2, h2⟩ + takeDims3.batchCoord (ix3 (0 : Fin 1) r (0 : Fin 1)) ⟨2, h2⟩
      + takeDims3.offCoord (ix3 (0 : Fin 1) r (0 : Fin 1)) ⟨2, h2⟩ = _
    have hc : (⟨2, h2⟩ : Fin 3) ∈ takeDims3.collapsedSliceDims :=
      List.mem_singleton.mpr rfl
    have hm : (⟨2, h2⟩ : Fin 3) ∈ takeDims3.startIndexMap :=
      List.mem_singleton.mpr rfl
    have hnb : (⟨2, h2⟩ : Fin 3) ∉ takeDims3.operandBatchingDims := fun h => by
      have h' : (2 : Nat) = 1 := congrArg Fin.val (List.mem_singleton.mp h)
      omega
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : takeDims3.siIdx (ix3 (0 : Fin 1) r (0 : Fin 1))
        ⟨List.idxOf (⟨2, h2⟩ : Fin 3) takeDims3.startIndexMap,
          List.idxOf_lt_length_iff.2 hm⟩ = ix3 r (0 : Fin 1) (0 : Fin 1) := by
      funext b
      refine Fin.ext ?_
      match b with
      | ⟨0, _⟩ => rfl
      | ⟨1, _⟩ => rfl
      | ⟨2, _⟩ => rfl
    rw [hsi]
    rfl

/-- The gathered log-softmax at (0, r, 0). -/
theorem ref_gather (x0 : RLogits) (x3 : RLabels) (r : Fin 2048) :
    val_main_call5_v13 (F := Ideal) x0 x3 (ix3 (0 : Fin 1) r (0 : Fin 1))
      = lsmR (rowOf x0 r) (readCol (wrapLabel (safeLabel (x3 (ix2 (0 : Fin 1) r))))) := by
  unfold val_main_call5_v13
  rw [gather_tok, ref_wrap3, ref_lsm]

/-! ## The cross-entropy -/

/-- The log-softmax read at the label, the fill value outside the row, at (0, r, 0). -/
theorem ref_take (x0 : RLogits) (x3 : RLabels) (r : Fin 2048) :
    val_main_v90 (F := Ideal) x0 x3 (ix3 (0 : Fin 1) r (0 : Fin 1))
      = Scalar.select (inRow (wrapLabel (safeLabel (x3 (ix2 (0 : Fin 1) r)))))
          (lsmR (rowOf x0 r) (readCol (wrapLabel (safeLabel (x3 (ix2 (0 : Fin 1) r)))))) wFill := by
  rw [val_main_v90_apply, ref_mask, ref_gather, val_main_call5_v15_apply, val_main_call5_cst_apply, Ideal.ofBits_def]

end Cross

open Cross

/-- The cross-entropy at token r. -/
theorem ref_ce (x0 : RLogits) (x3 : RLabels) (r : Fin 2048) :
    val_main_v93 (F := Ideal) x0 x3 (ix2 (0 : Fin 1) r) = ceR (rowOf x0 r) (atTok x3 r) := by
  show _ = ceR (rowOf x0 r) (x3 (ix2 (0 : Fin 1) r))
  unfold ceR
  rw [val_main_v93_apply, ref_valid, val_main_v92_apply, val_main_v91_apply, idx_v91_tok, ref_take,
    val_main_call6_v1_apply, val_main_call6_v0_apply, val_main_cst_32_apply, Ideal.ofBits_def,
    Ideal.hostNegf_def, Ideal.negf_def]

end Ewad.Ref

end
-- ==== Proof.RefStages.lean ====
/-
  The reference program's result: every token's loss is the token value of TokenSpec, and the program divides the sum
  of those by the larger of the mask's sum and one.
-/
import proofs.«406116_j41901700940018_3_alg».proof.Proof.LossSpec
import proofs.«406116_j41901700940018_3_alg».proof.Proof.RefLogits
import proofs.«406116_j41901700940018_3_alg».proof.Proof.RefDiverge
import proofs.«406116_j41901700940018_3_alg».proof.Proof.RefCross
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx

namespace Ewad.Ref

open Cert.ReferenceIdeal Cert.ReferenceIdeal.Gen Cert.ReferenceIdeal.ReadP Ewad

/-- The masked loss of token r. -/
theorem ref_tok (x0 x1 x2 : RLogits) (x3 : RLabels) (x4 : RMask) (r : Fin 2048) :
    val_main_v99 (F := Ideal) x0 x1 x2 x3 x4 (ix2 (0 : Fin 1) r)
      = tokR (rowOf x0 r) (rowOf x1 r) (rowOf x2 r) (atTok x3 r) (atTok x4 r) := by
  rw [val_main_v99_apply, val_main_v98_apply, val_main_v94_apply, val_main_v97_apply, val_main_v96_apply, val_main_v95_apply,
    val_main_v85_apply, val_main_v83_apply, val_main_v84_apply, ref_gate, ref_kl32, ref_kl14, ref_w32, ref_w14, ref_ce]
  rfl

/-- The program's result is the reference's arrangement of the loss. -/
theorem ref_value (x0 x1 x2 : RLogits) (x3 : RLabels) (x4 : RMask) (i : S_.Idx) :
    val_main_v103 (F := Ideal) x0 x1 x2 x3 x4 i = lossR x0 x1 x2 x3 x4 := by
  rw [val_main_v103_apply, val_main_v102_apply, val_main_v101_apply, val_main_v100_apply, sum_idx2, sum_idx2,
    Fin.sum_univ_one, Fin.sum_univ_one]
  simp only [ref_tok]
  rfl

end Ewad.Ref

end
-- ==== Proof.RefValue.lean ====
/-
  The reference program's run, read: its result is the reference's arrangement of the loss (LossSpec's lossR) of the
  five argument arrays, and the arguments end unchanged.
-/
import proofs.«406116_j41901700940018_3_alg».proof.Proof.RefStages

noncomputable section

open Idealize.ShloMosaic Idealize.ShloMosaic.TcCoe Idealize.SL.Sem

namespace Ewad.Ref

open Cert.ReferenceIdeal Cert.ReferenceIdeal.Gen Ewad

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v103)
        = (fun _ => lossR (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1.trans (by
        rw [Cert.ReferenceIdeal.ReadP.val_main_v103_eq]
        funext i
        exact ref_value _ _ _ _ _ i),
      (h c).2⟩)
    (Cert.ReferenceIdeal.ValueP.run (F := Ideal) m ρ)

end Ewad.Ref

end
-- ==== Proof.Consts.lean ====
/-
  The float literals both programs spell, as the extended reals their bit patterns denote: zero, one, one half, two and
  minus infinity exactly; the entropy floor 1e-8 and the logarithm of the vocabulary size only as positive reals,
  which is all the algebra asks of them (both programs carry the same words for them).
-/
import Idealize.ShloMosaic.PureOps.Ideal

noncomputable section

namespace Ewad.Consts

open Idealize.ShloMosaic

/-- The word of +0.0 denotes 0. -/
theorem zero : Ideal.ofBits .f32 0x00000000#32 = 0 := by
  simp [Ideal.ofBits, Ideal.ieee]

/-- The word of 1.0 denotes 1. -/
theorem one : Ideal.ofBits .f32 0x3F800000#32 = 1 := by
  simp [Ideal.ofBits, Ideal.ieee, -EReal.coe_mul]; norm_num

/-- The word of 0.5 denotes the real one half. -/
theorem half : Ideal.ofBits .f32 0x3F000000#32 = ((1 / 2 : ℝ) : EReal) := by
  simp [Ideal.ofBits, Ideal.ieee, -EReal.coe_mul]; norm_num

/-- The word of 2.0 denotes the real two. -/
theorem two : Ideal.ofBits .f32 0x40000000#32 = ((2 : ℝ) : EReal) := by
  simp [Ideal.ofBits, Ideal.ieee, -EReal.coe_mul]; norm_num

/-- The word of minus infinity denotes the bottom element. -/
theorem negInf : Ideal.ofBits .f32 0xFF800000#32 = ⊥ := by
  simp [Ideal.ofBits, Ideal.ieee]

/-- The entropy floor (the word nearest 1e-8) denotes a positive real. -/
theorem eps_pos : ∃ r : ℝ, 0 < r ∧ Ideal.ofBits .f32 0x322BCC77#32 = (r : EReal) := by
  refine ⟨_, ?_, by simp [Ideal.ofBits, Ideal.ieee, -EReal.coe_mul]; rfl⟩
  positivity

/-- The logarithm of the vocabulary size (the word nearest log 32000) denotes a positive real. -/
theorem logVocab_pos : ∃ r : ℝ, 0 < r ∧ Ideal.ofBits .f32 0x4125F9D2#32 = (r : EReal) := by
  refine ⟨_, ?_, by simp [Ideal.ofBits, Ideal.ieee, -EReal.coe_mul]; rfl⟩
  positivity

end Ewad.Consts

end
-- ==== Proof.LibGcnAlgebra.lean ====
/-
  General lemmas for certificates of graph convolutions at the extended reals.

  Three groups.
  * Coercions: a finite sum of reals read as an extended real is the sum of the terms read so; an extended real that
    is a real (IsReal) stays one under sums, products and maxima; the reciprocal square root of a count plus one.
  * Counting: a sum over a product of two finite ranges read through the flat index p + n · w, and a filtered sum cut
    down to the part of a longer range where the filter can hold at all.
  * The algebra of one normalised graph-convolution layer over the reals, in the two orders a hand-scheduled kernel
    and a textbook reference write it, and of a two-layer network with sum pooling and a linear head in both orders.
-/
import Idealize.ShloMosaic.PureOps.Ideal
import Mathlib.Algebra.BigOperators.Fin
import Mathlib.Logic.Equiv.Fin.Basic

noncomputable section

open scoped BigOperators

namespace GcnAlgebra

open Idealize.ShloMosaic

/-! ## Coercions -/

/-- A finite sum of reals, read as an extended real, is the sum of the terms read as extended reals. -/
@[norm_cast] theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, read as an extended real, is the maximum of the two read so. -/
@[norm_cast] theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A natural number read as an extended real is the real read so. -/
theorem coe_natCast (n : ℕ) : ((n : ℝ) : EReal) = (n : EReal) := rfl

/-- An extended real that is a real number. -/
def IsReal (v : EReal) : Prop := ∃ r : ℝ, v = (r : EReal)

theorem isReal_coe (r : ℝ) : IsReal (r : EReal) := ⟨r, rfl⟩

/-- Whatever is neither infinity is a real. -/
theorem isReal_of_ne {v : EReal} (ht : v ≠ ⊤) (hb : v ≠ ⊥) : IsReal v := ⟨v.toReal, (EReal.coe_toReal ht hb).symm⟩

/-- Whatever lies strictly between the two infinities in absolute value is a real. -/
theorem isReal_of_abs_lt_top {v : EReal} (h : max v (-v) < ⊤) : IsReal v := by
  refine isReal_of_ne (fun ht => ?_) (fun hb => ?_)
  · rw [ht] at h; exact absurd h (by simp)
  · rw [hb] at h; exact absurd h (by simp)

/-- A family of reals has a real-valued form. -/
theorem exists_real_form {α : Type*} {f : α → EReal} (h : ∀ i, IsReal (f i)) : ∃ g : α → ℝ, ∀ i, f i = (g i : EReal) :=
  ⟨fun i => (h i).choose, fun i => (h i).choose_spec⟩

/-- The reciprocal square root of a count plus one, at the extended reals, is the real one. -/
theorem div_one_sqrt_coe {c : ℝ} (hc : 0 ≤ c) :
    Ideal.div 1 (Ideal.sqrt ((c : EReal) + 1)) = ((1 / Real.sqrt (c + 1) : ℝ) : EReal) := by
  have hpos : 0 < c + 1 := by linarith
  have h1 : ((c : EReal) + 1) = ((c + 1 : ℝ) : EReal) := by rw [EReal.coe_add, EReal.coe_one]
  rw [h1, Ideal.sqrt_coe, if_neg (not_lt.2 hpos.le), Ideal.div_coe (Real.sqrt_pos.2 hpos).ne', one_mul]

/-! ## Counting -/

/-- A sum over two ranges of a function of the flat index p + n · w is the sum over the flat range. -/
theorem sum_fin_prod_flat {M : Type*} [AddCommMonoid M] (m n : ℕ) (f : Fin (m * n) → M) :
    ∑ w : Fin m, ∑ p : Fin n, f (finProdFinEquiv (w, p)) = ∑ e : Fin (m * n), f e := by
  rw [← Fintype.sum_prod_type' (fun w p => f (finProdFinEquiv (w, p)))]
  exact Equiv.sum_comp finProdFinEquiv f

/-- The flat index of (w, p) is p + n · w. -/
theorem finProdFinEquiv_val {m n : ℕ} (w : Fin m) (p : Fin n) : (finProdFinEquiv (w, p) : Fin (m * n)).val = p.val + n * w.val := rfl

/-- A sum over a longer range of terms that vanish past the first n is the sum over the first n. -/
theorem sum_fin_castLE {M : Type*} [AddCommMonoid M] {n N : ℕ} (h : n ≤ N) (f : Fin N → M)
    (hz : ∀ p : Fin N, n ≤ p.val → f p = 0) : ∑ p : Fin N, f p = ∑ p : Fin n, f (Fin.castLE h p) := by
  classical
  have hinj : Function.Injective (Fin.castLE h) := Fin.castLE_injective h
  have hm : ∑ p : Fin n, f (Fin.castLE h p) = ∑ q ∈ Finset.univ.map ⟨Fin.castLE h, hinj⟩, f q :=
    (Finset.sum_map Finset.univ ⟨Fin.castLE h, hinj⟩ f).symm
  rw [hm]
  symm
  refine Finset.sum_subset (Finset.subset_univ _) (fun p _ hp => hz p ?_)
  by_contra hlt
  exact hp (Finset.mem_map.2 ⟨⟨p.val, not_le.1 hlt⟩, Finset.mem_univ _, Fin.ext rfl⟩)

/-! ## One layer over the reals, in the two orders -/

section Layer

variable {ι ε κ φ : Type*} [Fintype ι] [Fintype ε] [Fintype κ] [Fintype φ] [DecidableEq ι]
variable (src dst : ε → ι) (d : ι → ℝ)

/-- The kernel's table of a layer: the features times the weights, each node's column scaled by its factor. -/
def tabK (W : κ → φ → ℝ) (h : κ → ι → ℝ) (f : φ) (n : ι) : ℝ := (∑ k, W k f * h k n) * d n

/-- The kernel's activations: the table summed over the edges into a node, plus the node's own column, scaled
    again, plus the bias, cut at zero. -/
def actK (g : φ → ι → ℝ) (b : φ → ℝ) (f : φ) (n : ι) : ℝ :=
  max (((∑ e ∈ Finset.univ.filter (fun e => dst e = n), g f (src e)) + g f n) * d n + b f) 0

/-- The reference's activations: each edge's message carries both ends' factors, the self loop the node's twice. -/
def actR (h : ι → κ → ℝ) (W : κ → φ → ℝ) (b : φ → ℝ) (i : ι) (f : φ) : ℝ :=
  max ((∑ e ∈ Finset.univ.filter (fun e => dst e = i), (∑ k, h (src e) k * W k f) * (d (src e) * d i))
    + (∑ k, h i k * W k f) * (d i * d i) + b f) 0

/-- The two orders agree: the outer factor distributes over the edge sum. -/
theorem actK_tabK (W : κ → φ → ℝ) (h : κ → ι → ℝ) (b : φ → ℝ) (f : φ) (n : ι) :
    actK src dst d (tabK d W h) b f n = actR src dst d (fun i k => h k i) W b n f := by
  have hk : ∀ m, (∑ k, W k f * h k m) = ∑ k, h k m * W k f :=
    fun m => Finset.sum_congr rfl (fun k _ => mul_comm _ _)
  simp only [actK, actR, tabK, hk]
  rw [add_mul, Finset.sum_mul]
  simp only [mul_assoc]

end Layer

/-! ## Two layers, sum pooling and a linear head, in the two orders -/

section Net

variable {ι ε κ φ γ : Type*} [Fintype ι] [Fintype ε] [Fintype κ] [Fintype φ] [DecidableEq ι] [DecidableEq γ]
variable (src dst : ε → ι) (d : ι → ℝ) (bat : ι → γ)

/-- The kernel's network: two layers over transposed tables, the pooling as a product with a one-hot matrix. -/
def netK (x : ι → κ → ℝ) (W1 : κ → φ → ℝ) (b1 : φ → ℝ) (W2 : φ → φ → ℝ) (b2 : φ → ℝ) (W3 : φ → ℝ) (b3 : ℝ) (g : γ) : ℝ :=
  (∑ f, (∑ n, actK src dst d (tabK d W2 (actK src dst d (tabK d W1 (fun k n => x n k)) b1)) b2 f n
      * (if bat n = g then 1 else 0)) * W3 f) + b3

/-- The reference's network: two layers, a segment sum, a matrix product and a bias. -/
def netR (x : ι → κ → ℝ) (W1 : κ → φ → ℝ) (b1 : φ → ℝ) (W2 : φ → φ → ℝ) (b2 : φ → ℝ) (W3 : φ → ℝ) (b3 : ℝ) (g : γ) : ℝ :=
  (∑ f, (∑ n ∈ Finset.univ.filter (fun n => bat n = g), actR src dst d (actR src dst d x W1 b1) W2 b2 n f) * W3 f) + b3

theorem netK_eq_netR (x : ι → κ → ℝ) (W1 : κ → φ → ℝ) (b1 : φ → ℝ) (W2 : φ → φ → ℝ) (b2 : φ → ℝ) (W3 : φ → ℝ) (b3 : ℝ) (g : γ) :
    netK src dst d bat x W1 b1 W2 b2 W3 b3 g = netR src dst d bat x W1 b1 W2 b2 W3 b3 g := by
  unfold netK netR
  congr 1
  refine Finset.sum_congr rfl (fun f _ => ?_)
  congr 1
  rw [Finset.sum_filter]
  refine Finset.sum_congr rfl (fun n _ => ?_)
  rw [actK_tabK]
  have h1 : (fun (i : ι) (k : φ) => actK src dst d (tabK d W1 (fun k n => x n k)) b1 k i) = actR src dst d x W1 b1 := by
    funext i k
    exact actK_tabK src dst d W1 (fun k n => x n k) b1 k i
  rw [h1]
  split_ifs <;> simp

end Net

end GcnAlgebra

end
-- ==== Proof.TokenWeights.lean ====
/-
  Three places where the two programs write one token differently without any sum over the vocabulary: the two
  teacher weights (a two-entry softmax against a logistic function of the difference), the gate (the logistic function
  against its spelling 1 / (1 + e^(−x))), and the cross-entropy (a one-column sum against a read at the label).
-/
import proofs.«406116_j41901700940018_3_alg».proof.Proof.TokenSpec
import proofs.«406116_j41901700940018_3_alg».proof.Proof.Consts
import proofs.«406116_j41901700940018_3_alg».proof.Proof.LibGcnAlgebra

noncomputable section

open scoped BigOperators

namespace Ewad

open Idealize.ShloMosaic GcnAlgebra

/-! ## Small facts used below -/

/-- The word of one is the real one. -/
theorem wOne_eq_coe : wOne = ((1 : ℝ) : EReal) := by
  rw [EReal.coe_one]; exact Consts.one

/-- A real divided by the word of one is itself. -/
theorem div_wOne_coe (a : ℝ) : Ideal.div (a : EReal) wOne = (a : EReal) := by
  rw [wOne_eq_coe, Ideal.div_coe one_ne_zero, ← EReal.coe_mul]
  norm_num

/-- The maximum folded from minus infinity over two entries is the larger of the two. -/
theorem fold_max_fin2 (f : Fin 2 → EReal) :
    (Finset.univ : Finset (Fin 2)).fold max ⊥ f = max (f 0) (f 1) := by
  have h : (Finset.univ : Finset (Fin 2)) = {0, 1} := by decide
  rw [h, Finset.fold_insert (by decide), Finset.fold_singleton, max_bot_right]

/-- The first entry of a two-entry softmax, shifted by any M, is the logistic function of the difference. -/
theorem softmax2_fst (a b M : ℝ) :
    Real.exp (a - M) * (1 / (Real.exp (a - M) + Real.exp (b - M))) = (1 + Real.exp (-(a - b)))⁻¹ := by
  have h : Real.exp (-(a - b)) = Real.exp (b - M) / Real.exp (a - M) := by
    rw [← Real.exp_sub]; congr 1; ring
  rw [h]
  have hA := Real.exp_pos (a - M)
  have hB := Real.exp_pos (b - M)
  field_simp

/-- The second entry of a two-entry softmax is one minus the first. -/
theorem softmax2_snd (a b M : ℝ) :
    Real.exp (b - M) * (1 / (Real.exp (a - M) + Real.exp (b - M))) = 1 - (1 + Real.exp (-(a - b)))⁻¹ := by
  have h : Real.exp (-(a - b)) = Real.exp (b - M) / Real.exp (a - M) := by
    rw [← Real.exp_sub]; congr 1; ring
  rw [h]
  have hA := Real.exp_pos (a - M)
  have hB := Real.exp_pos (b - M)
  field_simp
  ring

/-- The two-entry softmax of two real confidences is the logistic function of their difference, and its second entry is
    one minus the first. -/
theorem wR_eq (t32 t14 : Row) (ha : IsReal (confR t32)) (hb : IsReal (confR t14)) :
    wR t32 t14 0 = Ideal.logistic (Ideal.div (confR t32 - confR t14) wOne)
      ∧ wR t32 t14 1 = wOne - Ideal.logistic (Ideal.div (confR t32 - confR t14) wOne) := by
  obtain ⟨a, ha⟩ := ha
  obtain ⟨b, hb⟩ := hb
  have hz : wZero = 0 := Consts.zero
  have hninf : wNegInf = ⊥ := Consts.negInf
  have hp0 : pairR t32 t14 0 = (a : EReal) := by
    unfold pairR
    rw [if_pos (show (0 : Fin 2).val = 0 from rfl), ha, div_wOne_coe]
  have hp1 : pairR t32 t14 1 = (b : EReal) := by
    unfold pairR
    rw [if_neg (show ¬ (1 : Fin 2).val = 0 by decide), hb, div_wOne_coe]
  have hM : pairMaxR t32 t14 = ((max a b : ℝ) : EReal) := by
    unfold pairMaxR
    rw [hninf, fold_max_fin2, hp0, hp1, max_bot_left, coe_max]
  have hden : wZero + ∑ j : Fin 2, Ideal.exp (pairR t32 t14 j - pairMaxR t32 t14)
      = ((Real.exp (a - max a b) + Real.exp (b - max a b) : ℝ) : EReal) := by
    rw [hz, zero_add, Fin.sum_univ_two, hp0, hp1, hM, ← EReal.coe_sub, ← EReal.coe_sub, Ideal.exp_coe,
      Ideal.exp_coe, ← EReal.coe_add]
  have hrhs : Ideal.logistic (Ideal.div (confR t32 - confR t14) wOne)
      = (((1 + Real.exp (-(a - b)))⁻¹ : ℝ) : EReal) := by
    rw [ha, hb, ← EReal.coe_sub, div_wOne_coe, Ideal.logistic_coe]
  have hpos : (0 : ℝ) < Real.exp (a - max a b) + Real.exp (b - max a b) := by positivity
  constructor
  · unfold wR
    rw [hden, hrhs, hp0, hM, ← EReal.coe_sub, Ideal.exp_coe, Ideal.div_coe hpos.ne', ← EReal.coe_mul,
      softmax2_fst]
  · unfold wR
    rw [hden, hrhs, hp1, hM, ← EReal.coe_sub, Ideal.exp_coe, Ideal.div_coe hpos.ne', ← EReal.coe_mul,
      softmax2_snd, wOne_eq_coe, ← EReal.coe_sub]

/-- The reference's spelling of the gate is the logistic function. -/
theorem gate_spelling (x : EReal) : Ideal.div wOne (wOne + Ideal.exp (-x)) = Ideal.logistic x := by
  rw [show wOne = 1 from Consts.one]
  rfl

/-! ## The label -/

/-- A one-bit "p or (q and r)" that is set says p, or both q and r. -/
theorem or_and_bits (p q r : Bool)
    (h : BitVec.ofBool p ||| (BitVec.ofBool q &&& BitVec.ofBool r) = 1#1) : p = true ∨ (q = true ∧ r = true) := by
  revert h
  cases p <;> cases q <;> cases r <;> decide

theorem select_one {α : Type} (a b : α) : Scalar.select 1#1 a b = a := by
  unfold Scalar.select
  exact if_pos rfl

theorem select_zero {α : Type} (a b : α) : Scalar.select 0#1 a b = b := by
  unfold Scalar.select
  exact if_neg (by decide)

/-- A label that passes the precondition is the ignored one, or a signed word from 0 to 31999. -/
theorem labelOk_cases (l : BitVec 32) (hl : LabelOk l) :
    l = ignoreWord ∨ (l.toNat < 32000 ∧ l.toInt = (l.toNat : Int)) := by
  have h := or_and_bits (l == ignoreWord) ((0#32).sle l) (l.slt 32000#32) hl
  rcases h with h | ⟨h0, h1⟩
  · left
    exact eq_of_beq h
  · right
    rw [BitVec.sle_iff_toInt_le] at h0
    rw [BitVec.slt_iff_toInt_lt] at h1
    have e0 : (0#32).toInt = 0 := by decide
    have e1 : (32000#32).toInt = 32000 := by decide
    rw [e0] at h0
    rw [e1] at h1
    have hc := BitVec.toInt_eq_toNat_cond l
    have hlt := l.isLt
    split_ifs at hc with hh
    · constructor <;> omega
    · exfalso; omega

/-- With the label the ignored one or inside the row, reading the log-softmax at the label is the one-column sum. -/
theorem ceR_eq_ceK (sl : Row) (l : BitVec 32) (hl : LabelOk l) (hlsm : lsmR sl = lsmK sl) : ceR sl l = ceK sl l := by
  rcases labelOk_cases l hl with h | ⟨hn, hi⟩
  · subst h
    have hne : IntOp.cmpi .ne ignoreWord ignoreWord = 0#1 := by decide
    unfold ceR ceK
    rw [hne, select_zero, select_zero]
  · have hne : l ≠ ignoreWord := by
      intro h
      rw [h] at hn
      exact absurd hn (by decide)
    have hcne : IntOp.cmpi .ne l ignoreWord = 1#1 := by
      have hb : (l != ignoreWord) = true := bne_iff_ne.2 hne
      show BitVec.ofBool (l != ignoreWord) = 1#1
      rw [hb]; rfl
    have hsafe : safeLabel l = l := by
      unfold safeLabel
      rw [hcne, select_one]
    have hwrap : wrapLabel l = l := by
      have hb : l.slt 0#32 = false := by
        rw [BitVec.slt_eq_decide]
        have e0 : (0#32).toInt = 0 := by decide
        rw [e0]
        exact decide_eq_false (by omega)
      unfold wrapLabel
      show Scalar.select (BitVec.ofBool (l.slt 0#32)) _ _ = _
      rw [hb]
      exact select_zero _ _
    have hin : inRow l = 1#1 := by
      have hb0 : (0#32).sle l = true := by
        rw [BitVec.sle_eq_decide]
        have e0 : (0#32).toInt = 0 := by decide
        rw [e0]
        exact decide_eq_true (by omega)
      have hb1 : l.sle 31999#32 = true := by
        rw [BitVec.sle_eq_decide]
        have e1 : (31999#32).toInt = 31999 := by decide
        rw [e1]
        exact decide_eq_true (by omega)
      show BitVec.ofBool ((0#32).sle l) &&& BitVec.ofBool (l.sle 31999#32) = 1#1
      rw [hb0, hb1]; rfl
    have hcol : readCol l = ⟨l.toNat, hn⟩ := by
      apply Fin.ext
      show min l.toInt.toNat 31999 = l.toNat
      rw [hi, Int.toNat_natCast]
      omega
    have hsum : (∑ v : Fin 32000, Scalar.select (IntOp.cmpi .eq (BitVec.ofNat 32 v.val) l) (lsmK sl v) wZero)
        = lsmK sl ⟨l.toNat, hn⟩ := by
      rw [Finset.sum_eq_single (⟨l.toNat, hn⟩ : Fin 32000)]
      · have hb : (BitVec.ofNat 32 l.toNat == l) = true := by
          rw [beq_iff_eq]
          exact BitVec.eq_of_toNat_eq (by rw [BitVec.toNat_ofNat]; exact Nat.mod_eq_of_lt l.isLt)
        show Scalar.select (BitVec.ofBool (BitVec.ofNat 32 l.toNat == l)) _ _ = _
        rw [hb]
        exact select_one _ _
      · intro v _ hv
        have hb : (BitVec.ofNat 32 v.val == l) = false := by
          rw [beq_eq_false_iff_ne]
          intro h
          apply hv
          apply Fin.ext
          show v.val = l.toNat
          rw [← h, BitVec.toNat_ofNat]
          have := v.isLt
          exact (Nat.mod_eq_of_lt (by omega)).symm
        show Scalar.select (BitVec.ofBool (BitVec.ofNat 32 v.val == l)) _ _ = _
        rw [hb]
        rw [show BitVec.ofBool false = 0#1 from rfl, select_zero]
        exact Consts.zero
      · intro h
        exact absurd (Finset.mem_univ _) h
    unfold ceR ceK
    rw [hcne, select_one, select_one, hsafe, hwrap, hin, select_one, hcol, hsum, hlsm,
      show wZero = 0 from Consts.zero, zero_sub]

end Ewad

end
-- ==== Proof.TokenSums.lean ====
/-
  The places where the two programs group sums over the vocabulary differently. With every entry of the three rows a
  real number every intermediate is a real number, so sums split and factors move: the log-softmax is the same row, the
  confidences are the same reals, the divergence to the mixture is one sum over the half-sum, and each divergence to the
  student is a difference of two sums.
-/
import proofs.«406116_j41901700940018_3_alg».proof.Proof.TokenSpec
import proofs.«406116_j41901700940018_3_alg».proof.Proof.Consts
import proofs.«406116_j41901700940018_3_alg».proof.Proof.LibGcnAlgebra
import Mathlib.Data.Finset.Fold

noncomputable section

open scoped BigOperators

namespace Ewad

open Idealize.ShloMosaic GcnAlgebra

/-! ## The literal words as numbers -/

theorem wZero_eq : wZero = 0 := Consts.zero
theorem wOne_eq : wOne = ((1 : ℝ) : EReal) := by rw [EReal.coe_one]; exact Consts.one
theorem wHalf_eq : wHalf = ((1 / 2 : ℝ) : EReal) := Consts.half
theorem wTwo_eq : wTwo = ((2 : ℝ) : EReal) := Consts.two
theorem wNegInf_eq : wNegInf = ⊥ := Consts.negInf

/-! ## Reals stay reals -/

/-- The minimum of two reals, read as an extended real, is the minimum of the two read so. -/
theorem coe_min (a b : ℝ) : ((min a b : ℝ) : EReal) = min (a : EReal) (b : EReal) := by
  rcases le_total a b with h | h
  · rw [min_eq_left h, min_eq_left (EReal.coe_le_coe_iff.2 h)]
  · rw [min_eq_right h, min_eq_right (EReal.coe_le_coe_iff.2 h)]

theorem isReal_zero : IsReal (0 : EReal) := ⟨0, EReal.coe_zero.symm⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_sub {a b : EReal} (ha : IsReal a) (hb : IsReal b) : IsReal (a - b) := by
  obtain ⟨r, rfl⟩ := ha
  obtain ⟨s, rfl⟩ := hb
  exact ⟨r - s, (EReal.coe_sub r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_max {a b : EReal} (ha : IsReal a) (hb : IsReal b) : IsReal (max a b) := by
  obtain ⟨r, rfl⟩ := ha
  obtain ⟨s, rfl⟩ := hb
  exact ⟨max r s, (coe_max r s).symm⟩

theorem isReal_min {a b : EReal} (ha : IsReal a) (hb : IsReal b) : IsReal (min a b) := by
  obtain ⟨r, rfl⟩ := ha
  obtain ⟨s, rfl⟩ := hb
  exact ⟨min r s, (coe_min r s).symm⟩

theorem isReal_exp {a : EReal} (ha : IsReal a) : IsReal (Ideal.exp a) := by
  obtain ⟨r, rfl⟩ := ha
  exact ⟨Real.exp r, rfl⟩

theorem isReal_sum {ι : Type*} (s : Finset ι) {f : ι → EReal} (h : ∀ i, IsReal (f i)) : IsReal (∑ i ∈ s, f i) := by
  obtain ⟨g, hg⟩ := exists_real_form h
  exact ⟨∑ i ∈ s, g i, by rw [coe_sum]; exact Finset.sum_congr rfl (fun i _ => hg i)⟩

theorem isReal_div_coe {a : EReal} (ha : IsReal a) {y : ℝ} (hy : y ≠ 0) : IsReal (Ideal.div a (y : EReal)) := by
  rw [Ideal.div_coe hy]
  exact isReal_mul ha (isReal_coe _)

/-- The sum of p · log p over a row of reals is a real. -/
theorem sptK_real (t : Row) (ht : ∀ v, IsReal (t v)) : IsReal (sptK t) :=
  isReal_sum _ (fun v => isReal_mul (isReal_exp (ht v)) (ht v))

/-! ## The row maximum -/

theorem rowMaxR_eq (x : Row) : rowMaxR x = rowMax x := by
  unfold rowMaxR
  rw [wNegInf_eq]
  exact max_eq_right bot_le

/-- The maximum of a row of reals is a real: it is at least the first entry and below plus infinity. -/
theorem rowMax_real (x : Row) (hx : ∀ v, IsReal (x v)) : IsReal (rowMax x) := by
  unfold rowMax
  rw [wNegInf_eq]
  refine isReal_of_ne (ne_of_lt ?_) (ne_of_gt ?_)
  · rw [Finset.fold_max_lt]
    refine ⟨bot_lt_top, fun v _ => ?_⟩
    obtain ⟨r, hr⟩ := hx v
    rw [hr]
    exact EReal.coe_lt_top r
  · obtain ⟨r, hr⟩ := hx 0
    have h0 : x 0 ≤ (Finset.univ : Finset (Fin 32000)).fold max ⊥ x :=
      (Finset.le_fold_max _).2 (Or.inr ⟨0, Finset.mem_univ _, le_rfl⟩)
    refine lt_of_lt_of_le ?_ h0
    rw [hr]
    exact EReal.bot_lt_coe r

/-- The reference's row maximum and zero-started sum change nothing: the two log-softmaxes are one row. -/
theorem lsmR_eq_lsmK (x : Row) : lsmR x = lsmK x := by
  funext v
  unfold lsmR lsmK
  rw [rowMaxR_eq, wZero_eq, zero_add]

/-- The log-softmax of a row of reals is a row of reals. -/
theorem lsmK_real (x : Row) (hx : ∀ v, IsReal (x v)) : ∀ v, IsReal (lsmK x v) := by
  intro v
  obtain ⟨m, hm⟩ := rowMax_real x hx
  obtain ⟨g, hg⟩ := exists_real_form hx
  unfold lsmK
  have hterm : ∀ u, Ideal.exp (x u - rowMax x) = ((Real.exp (g u - m) : ℝ) : EReal) := by
    intro u
    rw [hg u, hm, ← EReal.coe_sub, Ideal.exp_coe]
  have hsum : (∑ u, Ideal.exp (x u - rowMax x)) = ((∑ u, Real.exp (g u - m) : ℝ) : EReal) := by
    rw [coe_sum]
    exact Finset.sum_congr rfl (fun u _ => hterm u)
  have hpos : 0 < ∑ u : Fin 32000, Real.exp (g u - m) :=
    Finset.sum_pos (fun u _ => Real.exp_pos _) Finset.univ_nonempty
  rw [hsum, Ideal.log_coe, if_neg (not_le.2 hpos), hg v, hm]
  exact isReal_sub (isReal_sub (isReal_coe _) (isReal_coe _)) (isReal_coe _)

/-- The two confidences are one number. -/
theorem confR_eq_confK (t : Row) : confR t = confK t := by
  unfold confR confK sptK
  rw [wZero_eq, zero_add, zero_sub]

/-- The confidence of a row of reals is a real. -/
theorem confK_real (t : Row) (ht : ∀ v, IsReal (t v)) : IsReal (confK t) := by
  obtain ⟨e, _, hE⟩ := Consts.eps_pos
  obtain ⟨L, hL, hLV⟩ := Consts.logVocab_pos
  have hEps : wEps = (e : EReal) := hE
  have hLogV : wLogV = (L : EReal) := hLV
  unfold confK
  rw [hLogV, hEps, wOne_eq, wZero_eq]
  exact isReal_sub (isReal_coe _)
    (isReal_div_coe (isReal_min (isReal_coe _) (isReal_max (isReal_coe _) (isReal_sub isReal_zero (sptK_real t ht))))
      hL.ne')

/-- The divergence to the mixture: two sums of p·(log p − log m) are the two sums of p·log p less twice the one sum
    over the half-sum. -/
theorem jsdR_eq_jsdK (t32 t14 : Row) (h32 : ∀ v, IsReal (t32 v)) (h14 : ∀ v, IsReal (t14 v)) :
    jsdR t32 t14 = jsdK t32 t14 := by
  obtain ⟨a, ha⟩ := exists_real_form h32
  obtain ⟨b, hb⟩ := exists_real_form h14
  obtain ⟨e, he, hE⟩ := Consts.eps_pos
  have hEps : wEps = (e : EReal) := hE
  -- the half-sum of the two probabilities is a nonnegative real, and with the floor added a positive one
  have hmix : ∀ v, wHalf * (Ideal.exp (t32 v) + Ideal.exp (t14 v))
      = ((1 / 2 * (Real.exp (a v) + Real.exp (b v)) : ℝ) : EReal) := by
    intro v
    rw [ha v, hb v, wHalf_eq, Ideal.exp_coe, Ideal.exp_coe, ← EReal.coe_add, ← EReal.coe_mul]
  have hpos : ∀ v, 0 < 1 / 2 * (Real.exp (a v) + Real.exp (b v)) + e := by
    intro v
    have h1 := Real.exp_pos (a v)
    have h2 := Real.exp_pos (b v)
    linarith
  -- so its logarithm is a real, the same one in both programs
  obtain ⟨lm, hlm⟩ : ∃ lm : Fin 32000 → ℝ, ∀ v,
      Ideal.log (wHalf * (Ideal.exp (t32 v) + Ideal.exp (t14 v)) + wEps) = (lm v : EReal) := by
    refine ⟨fun v => Real.log (1 / 2 * (Real.exp (a v) + Real.exp (b v)) + e), fun v => ?_⟩
    rw [hmix v, hEps, ← EReal.coe_add, Ideal.log_coe, if_neg (not_le.2 (hpos v))]
  have hA : (∑ v, Ideal.exp (t32 v) * (t32 v - logMixR t32 t14 v))
      = ((∑ v, Real.exp (a v) * (a v - lm v) : ℝ) : EReal) := by
    rw [coe_sum]
    refine Finset.sum_congr rfl (fun v _ => ?_)
    unfold logMixR
    rw [hlm v, ha v, Ideal.exp_coe, ← EReal.coe_sub, ← EReal.coe_mul]
  have hB : (∑ v, Ideal.exp (t14 v) * (t14 v - logMixR t32 t14 v))
      = ((∑ v, Real.exp (b v) * (b v - lm v) : ℝ) : EReal) := by
    rw [coe_sum]
    refine Finset.sum_congr rfl (fun v _ => ?_)
    unfold logMixR
    rw [hlm v, hb v, Ideal.exp_coe, ← EReal.coe_sub, ← EReal.coe_mul]
  have hP : sptK t32 = ((∑ v, Real.exp (a v) * a v : ℝ) : EReal) := by
    unfold sptK
    rw [coe_sum]
    refine Finset.sum_congr rfl (fun v _ => ?_)
    rw [ha v, Ideal.exp_coe, ← EReal.coe_mul]
  have hQ : sptK t14 = ((∑ v, Real.exp (b v) * b v : ℝ) : EReal) := by
    unfold sptK
    rw [coe_sum]
    refine Finset.sum_congr rfl (fun v _ => ?_)
    rw [hb v, Ideal.exp_coe, ← EReal.coe_mul]
  have hS : smK t32 t14 = ((∑ v, 1 / 2 * (Real.exp (a v) + Real.exp (b v)) * lm v : ℝ) : EReal) := by
    unfold smK
    rw [coe_sum]
    refine Finset.sum_congr rfl (fun v _ => ?_)
    unfold halfSum
    rw [hlm v, hmix v, ← EReal.coe_mul]
  -- the identity over the reals: the two logarithm terms gather into twice the sum over the half-sum
  have hR : (∑ v, Real.exp (a v) * (a v - lm v)) + (∑ v, Real.exp (b v) * (b v - lm v))
      = ((∑ v, Real.exp (a v) * a v) + (∑ v, Real.exp (b v) * b v))
        - 2 * ∑ v, 1 / 2 * (Real.exp (a v) + Real.exp (b v)) * lm v := by
    rw [Finset.mul_sum, ← Finset.sum_add_distrib, ← Finset.sum_add_distrib, ← Finset.sum_sub_distrib]
    exact Finset.sum_congr rfl (fun v _ => by ring)
  have hArg : (wZero + ∑ v, Ideal.exp (t32 v) * (t32 v - logMixR t32 t14 v))
        + (wZero + ∑ v, Ideal.exp (t14 v) * (t14 v - logMixR t32 t14 v))
      = (sptK t32 + sptK t14) - wTwo * smK t32 t14 := by
    rw [wZero_eq, zero_add, zero_add, hA, hB, hP, hQ, hS, wTwo_eq, ← EReal.coe_add, ← EReal.coe_add,
      ← EReal.coe_mul, ← EReal.coe_sub, hR]
  unfold jsdR jsdK
  rw [hArg]

/-- The divergence to the student: one sum of p·(log p − log q) is the sum of p·log p less the sum of p·log q. -/
theorem klR_eq_klK (sl t : Row) (hsl : ∀ v, IsReal (sl v)) (ht : ∀ v, IsReal (t v)) : klR sl t = klK sl t := by
  obtain ⟨g, hg⟩ := exists_real_form ht
  obtain ⟨q, hq⟩ := exists_real_form (lsmK_real sl hsl)
  have hA : (∑ v, Ideal.exp (t v) * (t v - lsmK sl v)) = ((∑ v, Real.exp (g v) * (g v - q v) : ℝ) : EReal) := by
    rw [coe_sum]
    refine Finset.sum_congr rfl (fun v _ => ?_)
    rw [hg v, hq v, Ideal.exp_coe, ← EReal.coe_sub, ← EReal.coe_mul]
  have hB : sptK t = ((∑ v, Real.exp (g v) * g v : ℝ) : EReal) := by
    unfold sptK
    rw [coe_sum]
    refine Finset.sum_congr rfl (fun v _ => ?_)
    rw [hg v, Ideal.exp_coe, ← EReal.coe_mul]
  have hC : (∑ v, Ideal.exp (t v) * lsmK sl v) = ((∑ v, Real.exp (g v) * q v : ℝ) : EReal) := by
    rw [coe_sum]
    refine Finset.sum_congr rfl (fun v _ => ?_)
    rw [hg v, hq v, Ideal.exp_coe, ← EReal.coe_mul]
  have hR : (∑ v, Real.exp (g v) * (g v - q v)) = (∑ v, Real.exp (g v) * g v) - ∑ v, Real.exp (g v) * q v := by
    rw [← Finset.sum_sub_distrib]
    exact Finset.sum_congr rfl (fun v _ => mul_sub _ _ _)
  unfold klR klK
  rw [lsmR_eq_lsmK, wZero_eq, zero_add, hA, hB, hC, hR, EReal.coe_sub]

end Ewad

end
-- ==== Proof.TokenAlgebra.lean ====
/-
  One token is the same number either way: under real rows and a label that is the ignored one or inside the row, the
  kernel's and the reference's token values agree, piece by piece.
-/
import proofs.«406116_j41901700940018_3_alg».proof.Proof.TokenWeights
import proofs.«406116_j41901700940018_3_alg».proof.Proof.TokenSums

noncomputable section

namespace Ewad

open Idealize.ShloMosaic GcnAlgebra

theorem tokK_eq_tokR (sl t32 t14 : Row) (l : BitVec 32) (mk : EReal)
    (hsl : ∀ v, IsReal (sl v)) (h32 : ∀ v, IsReal (t32 v)) (h14 : ∀ v, IsReal (t14 v)) (hl : LabelOk l) :
    tokK sl t32 t14 l mk = tokR sl t32 t14 l mk := by
  have hw := wR_eq t32 t14 (confR_eq_confK t32 ▸ confK_real t32 h32) (confR_eq_confK t14 ▸ confK_real t14 h14)
  unfold tokK tokR
  rw [hw.1, hw.2, klR_eq_klK sl t32 hsl h32, klR_eq_klK sl t14 hsl h14, ceR_eq_ceK sl l hl (lsmR_eq_lsmK sl)]
  unfold gateR gateK w32K
  rw [gate_spelling, jsdR_eq_jsdK t32 t14 h32 h14, confR_eq_confK, confR_eq_confK]

end Ewad

end
-- ==== Proof.Bridge.lean ====
/-
  The two arrangements of the loss agree. Token by token the kernel's value is the reference's (real rows, labels the
  ignored one or inside the row); the zeros the kernel's partial sums start from add nothing; and the sum over cores,
  blocks and rows is the sum over tokens, token k + 16·(s + 64·c) met exactly once.
-/
import proofs.«406116_j41901700940018_3_alg».proof.Proof.LossSpec
import proofs.«406116_j41901700940018_3_alg».proof.Proof.TokenAlgebra

noncomputable section

open scoped BigOperators

namespace Ewad

open Idealize.ShloMosaic GcnAlgebra

/-- A sum over cores, blocks and rows of a function of the token number is the sum over all tokens. -/
theorem sum_tokIx {M : Type*} [AddCommMonoid M] (g : Fin 2048 → M) :
    ∑ c : Fin 2, ∑ s : Fin 64, ∑ k : Fin 16, g (tokIx c s k) = ∑ r : Fin 2048, g r := by
  have inner : ∀ c : Fin 2, ∑ s : Fin 64, ∑ k : Fin 16, g (tokIx c s k)
      = ∑ e : Fin (64 * 16), g ⟨e.val + 1024 * c.val, by have := e.isLt; have := c.isLt; omega⟩ := by
    intro c
    rw [← sum_fin_prod_flat 64 16 (fun e : Fin (64 * 16) => g ⟨e.val + 1024 * c.val, by have := e.isLt; have := c.isLt; omega⟩)]
    refine Finset.sum_congr rfl (fun s _ => Finset.sum_congr rfl (fun k _ => ?_))
    congr 1
    apply Fin.ext
    show k.val + 16 * (s.val + 64 * c.val) = (finProdFinEquiv (s, k) : Fin (64 * 16)).val + 1024 * c.val
    rw [finProdFinEquiv_val]
    omega
  simp only [inner]
  rw [← sum_fin_prod_flat 2 (64 * 16) (fun x : Fin (2 * (64 * 16)) => g ⟨x.val, by have := x.isLt; omega⟩)]
  refine Finset.sum_congr rfl (fun c _ => Finset.sum_congr rfl (fun e _ => ?_))
  refine congrArg g (Fin.ext ?_)
  show e.val + 1024 * c.val = (finProdFinEquiv (c, e) : Fin (2 * (64 * 16))).val
  rw [finProdFinEquiv_val]

/-- The kernel's loss is the reference's. -/
theorem lossK_eq_lossR (x0 x1 x2 : SLogits.Idx → EReal) (x3 : STokens.Idx → BitVec 32) (x4 : STokens.Idx → EReal)
    (h0 : ∀ i, IsReal (x0 i)) (h1 : ∀ i, IsReal (x1 i)) (h2 : ∀ i, IsReal (x2 i)) (h3 : ∀ i, LabelOk (x3 i)) :
    lossK x0 x1 x2 x3 x4 = lossR x0 x1 x2 x3 x4 := by
  have hz : wZero = 0 := Consts.zero
  have htok : ∀ r : Fin 2048, tokK (rowOf x0 r) (rowOf x1 r) (rowOf x2 r) (atTok x3 r) (atTok x4 r)
      = tokR (rowOf x0 r) (rowOf x1 r) (rowOf x2 r) (atTok x3 r) (atTok x4 r) :=
    fun r => tokK_eq_tokR _ _ _ _ _ (fun v => h0 _) (fun v => h1 _) (fun v => h2 _) (h3 _)
  unfold lossK lossR blockNum blockDen
  simp only [hz, zero_add, htok]
  rw [sum_tokIx (fun r => tokR (rowOf x0 r) (rowOf x1 r) (rowOf x2 r) (atTok x3 r) (atTok x4 r)),
    sum_tokIx (fun r => atTok x4 r)]

end Ewad

end
-- ==== Proof.PreFacts.lean ====
/-
  What the precondition says of the argument arrays, entry by entry: every entry of the three float arrays the token
  sums run over is a real number, and every label is the ignored one or lies in the row.
-/
import proofs.«406116_j41901700940018_3_alg».proof.Pre_finite_inputs
import proofs.«406116_j41901700940018_3_alg».proof.Proof.Gen.Pre_finite_inputs
import proofs.«406116_j41901700940018_3_alg».proof.Proof.TokenSpec
import proofs.«406116_j41901700940018_3_alg».proof.Proof.LibGcnAlgebra
import Idealize.ShloMosaic.Lib.ReduceAll
import Idealize.ShloMosaic.Lib.ValueIdx
import Idealize.ShloMosaic.PureOps.Ideal.Laws

noncomputable section

open Idealize.ShloMosaic Idealize.ShloMosaic.ValueIdx

namespace Ewad

open GcnAlgebra

/-- The word 0x7F800000 denotes plus infinity. -/
theorem ofBits_posInf : Ideal.ofBits .f32 0x7F800000#32 = (⊤ : EReal) := by
  simp [Ideal.ofBits, Ideal.ieee]

/-- The rank-0 shape has one index. -/
instance subsingleton_scalarIdx : Subsingleton Cert.Pre_finite_inputs.S_.Idx :=
  ⟨fun a b => funext fun d => d.elim0⟩

/-- A conjunction of two arrays of bits, read at one index. -/
theorem vec_andi_eq_one {s : Shape} (x y : IVec s 1) (i : s.Idx) (h : andi x y i = 1#1) :
    x i = 1#1 ∧ y i = 1#1 :=
  IntOp.andi_eq_one.1 h

/-- An entry whose absolute value compares below plus infinity is a real number. -/
theorem isReal_of_olt_posInf (v : EReal)
    (h : Ideal.cmp .olt (max v (-v)) (Ideal.ofBits .f32 0x7F800000#32) = 1#1) : IsReal v := by
  rw [ofBits_posInf] at h
  refine isReal_of_abs_lt_top ?_
  by_contra hn
  have hd : decide (max v (-v) < ⊤) = false := decide_eq_false hn
  have hc : Ideal.cmp .olt (max v (-v)) ⊤ = 0#1 := by
    show BitVec.ofBool (decide (max v (-v) < ⊤)) = 0#1
    rw [hd]; rfl
  rw [hc] at h
  exact absurd h (by decide)

/-- The precondition, read: finiteness of the three float arrays (it also says the mask is finite, which nothing
    here needs) and the label range. -/
theorem pre_facts (a0 a1 a2 : Cert.Pre_finite_inputs.S1x2048x32000.Idx → EReal)
    (a3 : Cert.Pre_finite_inputs.S1x2048.Idx → BitVec 32) (a4 : Cert.Pre_finite_inputs.S1x2048.Idx → EReal)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, LabelOk (a3 i)) := by
  have h0 := congrFun h ValueIdx.ix0
  dsimp only [Cert.Pre_finite_inputs.fn, Cert.Pre_finite_inputs.fn_part1] at h0
  obtain ⟨h18, h27⟩ := vec_andi_eq_one _ _ _ h0
  obtain ⟨h13, -⟩ := vec_andi_eq_one _ _ _ h18
  obtain ⟨h8, h12⟩ := vec_andi_eq_one _ _ _ h13
  obtain ⟨h3, h7⟩ := vec_andi_eq_one _ _ _ h8
  have e0 := fun i => Host.reduce_andi_all _ _ _ _ _ h3 i
  have e1 := fun i => Host.reduce_andi_all _ _ _ _ _ h7 i
  have e2 := fun i => Host.reduce_andi_all _ _ _ _ _ h12 i
  have e3 := fun i => Host.reduce_andi_all _ _ _ _ _ h27 i
  exact ⟨fun i => isReal_of_olt_posInf _ (e0 i), fun i => isReal_of_olt_posInf _ (e1 i),
    fun i => isReal_of_olt_posInf _ (e2 i), fun i => e3 i⟩

end Ewad

end
-- ==== Proof.lean ====
/-
  The certificate's claim. The kernel walks the 2048 tokens in 128 blocks of 16 on two cores, each core adding its 64
  blocks' weighted losses and mask values into one resident tile, and divides the two cores' totals at the end; the
  reference computes every token's loss at once and divides the two sums. Token by token the two compute one number
  over the extended reals once every entry of the three float arrays is a real number and every label is the ignored
  one or a column of the row: the kernel's logistic weight is the reference's two-entry softmax, its one sum over the
  half-sum of the teachers' probabilities is the reference's two sums against the mixture, its differences of sums are
  the reference's sums of differences, and its one-column sum is the reference's read at the label. Sums over cores,
  blocks and rows regroup into the sum over tokens. The frames of the two kernel programs are the generated ones; the
  reference's frame is its run with the result dropped; nothing was rewritten by the idealization.
-/
import proofs.«406116_j41901700940018_3_alg».proof.Defs
import proofs.«406116_j41901700940018_3_alg».proof.Proof.Gen.Kernel
import proofs.«406116_j41901700940018_3_alg».proof.Proof.Gen.Kernel.Frame
import proofs.«406116_j41901700940018_3_alg».proof.Proof.Gen.KernelIdeal
import proofs.«406116_j41901700940018_3_alg».proof.Proof.Gen.KernelIdeal.Frame
import proofs.«406116_j41901700940018_3_alg».proof.Proof.Gen.ReferenceIdeal
import proofs.«406116_j41901700940018_3_alg».proof.Proof.Gen.Pre_finite_inputs
import proofs.«406116_j41901700940018_3_alg».proof.Proof.KernelValue
import proofs.«406116_j41901700940018_3_alg».proof.Proof.RefValue
import proofs.«406116_j41901700940018_3_alg».proof.Proof.Bridge
import proofs.«406116_j41901700940018_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Ewad.Ref.run m ρ)

/-- Both programs end at one number: the kernel's arrangement of the loss of its arguments is the reference's
    arrangement of the loss of arguments that agree with them. -/
theorem algebraic : Cert.algebraic_KernelIdeal_ReferenceIdeal := by
  intro m ρ m' ρ' hpre hagree
  refine ⟨fun c => fun _ => Ewad.lossK (Cert.KernelIdeal.Pieces.A0 m c) (Cert.KernelIdeal.Pieces.A1 m c)
    (Cert.KernelIdeal.Pieces.A2 m c) (Cert.KernelIdeal.Pieces.A3 m c) (Cert.KernelIdeal.Pieces.A4 m c),
    Cert.KernelIdeal.Pieces.run m ρ, ?_⟩
  refine (θ_run Cert.ReferenceIdeal.defs _ _).mono (fun _ h c => ⟨(h c).1.trans ?_, (h c).2⟩) (Ewad.Ref.run m' ρ')
  obtain ⟨h0, h1, h2, h3⟩ := Ewad.pre_facts _ _ _ _ _ (hpre c)
  rw [(hagree c).1, (hagree c).2.1, (hagree c).2.2.1, (hagree c).2.2.2.1, (hagree c).2.2.2.2]
  funext _
  exact (Ewad.lossK_eq_lossR _ _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
